-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2 : Shape := ⟨1, ![2]⟩
abbrev S4096x200x2 : Shape := ⟨3, ![4096, 200, 2]⟩
abbrev S4096x200x64 : Shape := ⟨3, ![4096, 200, 64]⟩
abbrev S4096x199x64 : Shape := ⟨3, ![4096, 199, 64]⟩
abbrev S4096x200x65 : Shape := ⟨3, ![4096, 200, 65]⟩
abbrev S4096 : Shape := ⟨1, ![4096]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel
  bcast_S_S4096x200x2 : S_.BroadcastsInDim S4096x200x2 (![] : Fin 0 → Fin S4096x200x2.rank)
  reducesTo_S4096x200x2_S_d0_1_2 : S4096x200x2.ReducesTo [0, 1, 2] S_
  bcast_S_S4096x200x64 : S_.BroadcastsInDim S4096x200x64 (![] : Fin 0 → Fin S4096x200x64.rank)
  reducesTo_S4096x200x64_S_d0_1_2 : S4096x200x64.ReducesTo [0, 1, 2] S_
  bcast_S_S4096x199x64 : S_.BroadcastsInDim S4096x199x64 (![] : Fin 0 → Fin S4096x199x64.rank)
  reducesTo_S4096x199x64_S_d0_1_2 : S4096x199x64.ReducesTo [0, 1, 2] S_
  bcast_S_S4096x200x65 : S_.BroadcastsInDim S4096x200x65 (![] : Fin 0 → Fin S4096x200x65.rank)
  reducesTo_S4096x200x65_S_d0_1_2 : S4096x200x65.ReducesTo [0, 1, 2] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x200x65 .f32) (main_arg5 : IVec S4096 32) (main_v13 : IVec S_ 1) (main_v16 : IVec S4096x199x64 1) : IVec S_ 1 :=
  let main_c_5 : IVec S_ 1 := constantI S_ 1 1#1
  let main_v17 : IVec S_ 1 := (fun x v => Host.reduce IntOp.andi x v reducesTo_S4096x199x64_S_d0_1_2 h_S_) main_v16 main_c_5
  let main_v18 : IVec S_ 1 := andi main_v13 main_v17
  let main_v19 : FVec F S4096x200x65 .f32 := Host.absf main_arg4
  let main_cst_6 : FVec F S_ .f32 := constant S_ .f32 0x7F800000#32
  let main_v20 : FVec F S4096x200x65 .f32 := broadcastInDim S4096x200x65 ![] bcast_S_S4096x200x65 main_cst_6
  let main_v21 : IVec S4096x200x65 1 := cmpf .olt main_v19 main_v20
  let main_c_7 : IVec S_ 1 := constantI S_ 1 1#1
  let main_v22 : IVec S_ 1 := (fun x v => Host.reduce IntOp.andi x v reducesTo_S4096x200x65_S_d0_1_2 h_S_) main_v21 main_c_7
  let main_v23 : IVec S_ 1 := andi main_v18 main_v22
  let main_c_8 : IVec S_ 32 := constantI S_ 32 200#32
  let main_v24 : IVec S4096 32 := broadcastInDim S4096 ![] bcast_S_S4096 main_c_8
  let main_v25 : IVec S4096 1 := cmpi .sle main_arg5 main_v24
  let main_c_9 : IVec S_ 1 := constantI S_ 1 1#1
  let main_v26 : IVec S_ 1 := (fun x v => Host.reduce IntOp.andi x v reducesTo_S4096_S_d0 h_S_) main_v25 main_c_9
  let main_v27 : IVec S_ 1 := andi main_v23 main_v26
  main_v27

def fn {F : FTy → Type} [FloatOps F] (main_arg0 : FVec F S2 .f32) (main_arg1 : FVec F S4096x200x2 .f32) (main_arg2 : FVec F S4096x200x64 .f32) (main_arg3 : FVec F S4096x199x64 .f32) (main_arg4 : FVec F S4096x200x65 .f32) (main_arg5 : IVec S4096 32) : IVec S_ 1 :=
  let main_v0 : FVec F S2 .f32 := Host.absf main_arg0
  let main_cst : FVec F S_ .f32 := constant S_ .f32 0x7F800000#32
  let main_v1 : FVec F S2 .f32 := broadcastInDim S2 ![] bcast_S_S2 main_cst
  let main_v2 : IVec S2 1 := cmpf .olt main_v0 main_v1
  let main_c : IVec S_ 1 := constantI S_ 1 1#1
  let main_v3 : IVec S_ 1 := (fun x v => Host.reduce IntOp.andi x v reducesTo_S2_S_d0 h_S_) main_v2 main_c
  let main_v4 : FVec F S4096x200x2 .f32 := Host.absf main_arg1
  let main_cst_0 : FVec F S_ .f32 := constant S_ .f32 0x7F800000#32
  let main_v5 : FVec F S4096x200x2 .f32 := broadcastInDim S4096x200x2 ![] bcast_S_S4096x200x2 main_cst_0
  let main_v6 : IVec S4096x200x2 1 := cmpf .olt main_v4 main_v5
  let main_c_1 : IVec S_ 1 := constantI S_ 1 1#1
  let main_v7 : IVec S_ 1 := (fun x v => Host.reduce IntOp.andi x v reducesTo_S4096x200x2_S_d0_1_2 h_S_) main_v6 main_c_1
  let main_v8 : IVec S_ 1 := andi main_v3 main_v7
  let main_v9 : FVec F S4096x200x64 .f32 := Host.absf main_arg2
  let main_cst_2 : FVec F S_ .f32 := constant S_ .f32 0x7F800000#32
  let main_v10 : FVec F S4096x200x64 .f32 := broadcastInDim S4096x200x64 ![] bcast_S_S4096x200x64 main_cst_2
  let main_v11 : IVec S4096x200x64 1 := cmpf .olt main_v9 main_v10
  let main_c_3 : IVec S_ 1 := constantI S_ 1 1#1
  let main_v12 : IVec S_ 1 := (fun x v => Host.reduce IntOp.andi x v reducesTo_S4096x200x64_S_d0_1_2 h_S_) main_v11 main_c_3
  let main_v13 : IVec S_ 1 := andi main_v8 main_v12
  let main_v14 : FVec F S4096x199x64 .f32 := Host.absf main_arg3
  let main_cst_4 : FVec F S_ .f32 := constant S_ .f32 0x7F800000#32
  let main_v15 : FVec F S4096x199x64 .f32 := broadcastInDim S4096x199x64 ![] bcast_S_S4096x199x64 main_cst_4
  let main_v16 : IVec S4096x199x64 1 := cmpf .olt main_v14 main_v15
  fn_part1 (F := F) main_arg4 main_arg5 main_v13 main_v16
-- ==== Kernel.lean ====
abbrev S2 : Shape := ⟨1, ![2]⟩
abbrev S4096x200x2 : Shape := ⟨3, ![4096, 200, 2]⟩
abbrev S4096x200x64 : Shape := ⟨3, ![4096, 200, 64]⟩
abbrev S4096x199x64 : Shape := ⟨3, ![4096, 199, 64]⟩
abbrev S4096x200x65 : Shape := ⟨3, ![4096, 200, 65]⟩
abbrev S4096 : Shape := ⟨1, ![4096]⟩
abbrev S4096x400 : Shape := ⟨2, ![4096, 400]⟩
abbrev S1x2 : Shape := ⟨2, ![1, 2]⟩
abbrev S200x2 : Shape := ⟨2, ![200, 2]⟩
abbrev S400 : Shape := ⟨1, ![400]⟩
abbrev S4096x1 : Shape := ⟨2, ![4096, 1]⟩
abbrev S128x8x128 : Shape := ⟨3, ![128, 8, 128]⟩
abbrev S32x400 : Shape := ⟨2, ![32, 400]⟩
abbrev S32x200x65 : Shape := ⟨3, ![32, 200, 65]⟩
abbrev S32x199x64 : Shape := ⟨3, ![32, 199, 64]⟩
abbrev S32x1 : Shape := ⟨2, ![32, 1]⟩
abbrev S1x8x128 : Shape := ⟨3, ![1, 8, 128]⟩
abbrev S32x398 : Shape := ⟨2, ![32, 398]⟩
abbrev S32 : Shape := ⟨1, ![32]⟩
abbrev S1x32 : Shape := ⟨2, ![1, 32]⟩
abbrev S1 : Shape := ⟨1, ![1]⟩
abbrev S1x1 : Shape := ⟨2, ![1, 1]⟩
abbrev S1x400 : Shape := ⟨2, ![1, 400]⟩
abbrev S32x199 : Shape := ⟨2, ![32, 199]⟩
abbrev S128x1x1 : Shape := ⟨3, ![128, 1, 1]⟩
abbrev S128 : Shape := ⟨1, ![128]⟩
abbrev S_ : Shape := ⟨0, ![]⟩

abbrev nBuf : Space → Nat
  | .hbm => 40
  | .vmem => 15
  | .smem => 0
  | _ => 0

abbrev bufTy : (tb : Table) → Fin (tcTables nBuf tb) → BufTy
  | .hbm, ⟨0, _⟩ => ⟨S2, .f32⟩
  | .hbm, ⟨1, _⟩ => ⟨S4096x200x2, .f32⟩
  | .hbm, ⟨2, _⟩ => ⟨S4096x200x64, .f32⟩
  | .hbm, ⟨3, _⟩ => ⟨S4096x199x64, .f32⟩
  | .hbm, ⟨4, _⟩ => ⟨S4096x200x65, .f32⟩
  | .hbm, ⟨5, _⟩ => ⟨S4096, .i32⟩
  | .hbm, ⟨6, _⟩ => ⟨S4096x400, .f32⟩
  | .hbm, ⟨7, _⟩ => ⟨S1x2, .f32⟩
  | .hbm, ⟨8, _⟩ => ⟨S200x2, .f32⟩
  | .hbm, ⟨9, _⟩ => ⟨S400, .f32⟩
  | .hbm, ⟨10, _⟩ => ⟨S4096x1, .i32⟩
  | .hbm, ⟨11, _⟩ => ⟨S128x8x128, .f32⟩
  | .hbm, ⟨12, _⟩ => ⟨S128x8x128, .f32⟩
  | .hbm, ⟨13, _⟩ => ⟨S128x8x128, .f32⟩
  | .hbm, ⟨14, _⟩ => ⟨S128x1x1, .f32⟩
  | .hbm, ⟨15, _⟩ => ⟨S128, .f32⟩
  | .hbm, ⟨16, _⟩ => ⟨S_, .f32⟩
  | .hbm, ⟨17, _⟩ => ⟨S_, .f32⟩
  | .hbm, ⟨18, _⟩ => ⟨S128x1x1, .f32⟩
  | .hbm, ⟨19, _⟩ => ⟨S128, .f32⟩
  | .hbm, ⟨20, _⟩ => ⟨S_, .f32⟩
  | .hbm, ⟨21, _⟩ => ⟨S_, .f32⟩
  | .hbm, ⟨22, _⟩ => ⟨S128x1x1, .f32⟩
  | .hbm, ⟨23, _⟩ => ⟨S128, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S32x400, .f32⟩
  | .local _ .vmem, ⟨1, _⟩ => ⟨S32x400, .f32⟩
  | .local _ .vmem, ⟨2, _⟩ => ⟨S400, .f32⟩
  | .local _ .vmem, ⟨3, _⟩ => ⟨S32x200x65, .f32⟩
  | .local _ .vmem, ⟨4, _⟩ => ⟨S32x200x65, .f32⟩
  | .local _ .vmem, ⟨5, _⟩ => ⟨S32x199x64, .f32⟩
  | .local _ .vmem, ⟨6, _⟩ => ⟨S32x199x64, .f32⟩
  | .local _ .vmem, ⟨7, _⟩ => ⟨S32x1, .i32⟩
  | .local _ .vmem, ⟨8, _⟩ => ⟨S32x1, .i32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | _, _ => ⟨S2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x200x65 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x199x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4096x200x2_S4096x400 : S4096x200x2.ShapeCasts S4096x400
  shapeCasts_S2_S1x2 : S2.ShapeCasts S1x2
  bcast_S1x2_S200x2_0_1 : S1x2.BroadcastsInDim S200x2 (![0, 1] : Fin 2 → Fin S200x2.rank)
  shapeCasts_S200x2_S400 : S200x2.ShapeCasts S400
  shapeCasts_S4096_S4096x1 : S4096.ShapeCasts S4096x1
  inb_S32x400_S32x400_0_0 : ∀ a, (![0, 0] : Fin 2 → Nat) a + S32x400.size a ≤ S32x400.size a
  h_S32x400 : 0 < S32x400.numel
  shapeCasts_S32x400_S32x400 : S32x400.ShapeCasts S32x400
  slices_S32x400_o0_0_S32x398 : S32x400.Slices ![0, 0] S32x398
  slices_S32x400_o0_2_S32x398 : S32x400.Slices ![0, 2] S32x398
  reduces_S32x398_S32 : S32x398.Reduces [1] S32
  shapeCasts_S32_S1x32 : S32.ShapeCasts S1x32
  reduces_S1x32_S1 : S1x32.Reduces [1] S1
  shapeCasts_S1_S1x1 : S1.ShapeCasts S1x1
  inpos_S1x1_p0_0 : ∀ a, (![0, 0] : Fin 2 → Nat) a < S1x1.size a
  inb_S400_S400_0 : ∀ a, (![0] : Fin 1 → Nat) a + S400.size a ≤ S400.size a
  h_S400 : 0 < S400.numel
  shapeCasts_S400_S1x400 : S400.ShapeCasts S1x400
  broadcasts_S1x400_S32x400 : S1x400.Broadcasts S32x400
  reduces_S32x400_S32 : S32x400.Reduces [1] S32
  inb_S32x200x65_S32x200x65_0_0_0 : ∀ a, (![0, 0, 0] : Fin 3 → Nat) a + S32x200x65.size a ≤ S32x200x65.size a
  h_S32x200x65 : 0 < S32x200x65.numel
  slices_S32x200x65_o0_1_1_S32x199x64 : S32x200x65.Slices ![0, 1, 1] S32x199x64
  inb_S32x199x64_S32x199x64_0_0_0 : ∀ a, (![0, 0, 0] : Fin 3 → Nat) a + S32x199x64.size a ≤ S32x199x64.size a
  h_S32x199x64 : 0 < S32x199x64.numel
  reduces_S32x199x64_S32x199 : S32x199x64.Reduces [2] S32x199
  inb_S32x1_S32x1_0_0 : ∀ a, (![0, 0] : Fin 2 → Nat) a + S32x1.size a ≤ S32x1.size a
  h_S32x1 : 0 < S32x1.numel
  shapeCasts_S32x1_S32x1 : S32x1.ShapeCasts S32x1
  iota_S32x199_d1_w32 : S32x199.Iotas .tc 32 [1]
  broadcasts_S32x1_S32x199 : S32x1.Broadcasts S32x199
  natLt_1_32 : 1 < 32
  reduces_S32x199_S32 : S32x199.Reduces [1] S32
  shapeCasts_S32x1_S32 : S32x1.ShapeCasts S32
  inb_S1x8x128_S1x8x128_0_0_0 : ∀ a, (![0, 0, 0] : Fin 3 → Nat) a + S1x8x128.size a ≤ S1x8x128.size a
  h_S1x8x128 : 0 < S1x8x128.numel
  slices_S128x8x128_S128x1x1_0_0_0 : S128x8x128.Slices ![0, 0, 0] S128x1x1
  shapeCasts_S128x1x1_S128 : S128x1x1.ShapeCasts S128
  reducesTo_S128_S_d0 : S128.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x400.size a ≤ S4096x400.size a
  hwx0_0 : ∀ i : grid0.Coords, EltTy.bits .f32 = 32 ∨ (Rect.block (s := S4096x400) S32x400.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S400.size a ≤ S400.size a
  hwx0_1 : ∀ i : grid0.Coords, EltTy.bits .f32 = 32 ∨ (Rect.block (s := S400) S400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x200x65.size a ≤ S4096x200x65.size a
  hwx0_2 : ∀ i : grid0.Coords, EltTy.bits .f32 = 32 ∨ (Rect.block (s := S4096x200x65) S32x200x65.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x199x64.size a ≤ S4096x199x64.size a
  hwx0_3 : ∀ i : grid0.Coords, EltTy.bits .f32 = 32 ∨ (Rect.block (s := S4096x199x64) S32x199x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S4096x1.size a
  hwx0_4 : ∀ i : grid0.Coords, EltTy.bits .i32 = 32 ∨ (Rect.block (s := S4096x1) S32x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S128x8x128.size a
  hwx0_5 : ∀ i : grid0.Coords, EltTy.bits .f32 = 32 ∨ (Rect.block (s := S128x8x128) S1x8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S128x8x128.size a
  hwx0_6 : ∀ i : grid0.Coords, EltTy.bits .f32 = 32 ∨ (Rect.block (s := S128x8x128) S1x8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S128x8x128.size a
  hwx0_7 : ∀ i : grid0.Coords, EltTy.bits .f32 = 32 ∨ (Rect.block (s := S128x8x128) S1x8x128.size (cc0_transform_7 i) (hinb0_7 i)).WholeWords (EltTy.packing .f32)

variable [Facts₀]

abbrev win0_0 : Pipeline.Window sig grid0 :=
  Pipeline.Window.ofSpec (Memref.whole main_v0) S32x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S400.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32x200x65.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x199x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S32x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S1x8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S1x8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_2) S1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2 : Shape := ⟨1, ![2]⟩
abbrev S4096x200x2 : Shape := ⟨3, ![4096, 200, 2]⟩
abbrev S4096x200x64 : Shape := ⟨3, ![4096, 200, 64]⟩
abbrev S4096x199x64 : Shape := ⟨3, ![4096, 199, 64]⟩
abbrev S4096x200x65 : Shape := ⟨3, ![4096, 200, 65]⟩
abbrev S4096 : Shape := ⟨1, ![4096]⟩
abbrev S199 : Shape := ⟨1, ![199]⟩
abbrev S1x199 : Shape := ⟨2, ![1, 199]⟩
abbrev S4096x1 : Shape := ⟨2, ![4096, 1]⟩
abbrev S_ : Shape := ⟨0, ![]⟩
abbrev S4096x199 : Shape := ⟨2, ![4096, 199]⟩
abbrev S4096x199x1 : Shape := ⟨3, ![4096, 199, 1]⟩
abbrev S4096x199x2 : Shape := ⟨3, ![4096, 199, 2]⟩
abbrev S1x1x2 : Shape := ⟨3, ![1, 1, 2]⟩

abbrev nBuf : Space → Nat
  | .hbm => 73
  | .vmem => 0
  | .smem => 0
  | _ => 0

abbrev bufTy : (tb : Table) → Fin (tcTables nBuf tb) → BufTy
  | .hbm, ⟨0, _⟩ => ⟨S2, .f32⟩
  | .hbm, ⟨1, _⟩ => ⟨S4096x200x2, .f32⟩
  | .hbm, ⟨2, _⟩ => ⟨S4096x200x64, .f32⟩
  | .hbm, ⟨3, _⟩ => ⟨S4096x199x64, .f32⟩
  | .hbm, ⟨4, _⟩ => ⟨S4096x200x65, .f32⟩
  | .hbm, ⟨5, _⟩ => ⟨S4096, .i32⟩
  | .hbm, ⟨6, _⟩ => ⟨S4096x199x64, .f32⟩
  | .hbm, ⟨7, _⟩ => ⟨S4096x199x64, .f32⟩
  | .hbm, ⟨8, _⟩ => ⟨S4096x199x64, .f32⟩
  | .hbm, ⟨9, _⟩ => ⟨S199, .i32⟩
  | .hbm, ⟨10, _⟩ => ⟨S1x199, .i32⟩
  | .hbm, ⟨11, _⟩ => ⟨S4096x1, .i32⟩
  | .hbm, ⟨12, _⟩ => ⟨S_, .i32⟩
  | .hbm, ⟨13, _⟩ => ⟨S4096x1, .i32⟩
  | .hbm, ⟨14, _⟩ => ⟨S4096x1, .i32⟩
  | .hbm, ⟨15, _⟩ => ⟨S4096x199, .i32⟩
  | .hbm, ⟨16, _⟩ => ⟨S4096x199, .i32⟩
  | .hbm, ⟨17, _⟩ => ⟨S4096x199, .i1⟩
  | .hbm, ⟨18, _⟩ => ⟨S4096x199, .f32⟩
  | .hbm, ⟨19, _⟩ => ⟨S4096x199x1, .f32⟩
  | .hbm, ⟨20, _⟩ => ⟨S4096x199x64, .f32⟩
  | .hbm, ⟨21, _⟩ => ⟨S4096x199x64, .f32⟩
  | .hbm, ⟨22, _⟩ => ⟨S_, .f32⟩
  | .hbm, ⟨23, _⟩ => ⟨S4096, .f32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .f32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096x199x2, .f32⟩
  | .hbm, ⟨47, _⟩ => ⟨S4096x199x2, .f32⟩
  | .hbm, ⟨48, _⟩ => ⟨S4096x199x2, .f32⟩
  | .hbm, ⟨49, _⟩ => ⟨S4096x199x2, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S1x1x2, .f32⟩
  | .hbm, ⟨55, _⟩ => ⟨S4096x200x2, .f32⟩
  | .hbm, ⟨56, _⟩ => ⟨S4096x200x2, .f32⟩
  | .hbm, ⟨57, _⟩ => ⟨S_, .f32⟩
  | .hbm, ⟨58, _⟩ => ⟨S4096x200x2, .f32⟩
  | .hbm, ⟨59, _⟩ => ⟨S4096x200x2, .f32⟩
  | .hbm, ⟨60, _⟩ => ⟨S4096x200x2, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_cst_12 : Ref sig .tc := ⟨.hbm, 65, rfl⟩
abbrev main_v43 : Ref sig .tc := ⟨.hbm, 66, rfl⟩
abbrev main_cst_13 : Ref sig .tc := ⟨.hbm, 67, rfl⟩
abbrev main_v44 : Ref sig .tc := ⟨.hbm, 68, rfl⟩
abbrev main_v45 : Ref sig .tc := ⟨.hbm, 69, rfl⟩
abbrev main_cst_14 : Ref sig .tc := ⟨.hbm, 70, rfl⟩
abbrev main_v46 : Ref sig .tc := ⟨.hbm, 71, rfl⟩
abbrev main_v47 : Ref sig .tc := ⟨.hbm, 72, rfl⟩

abbrev nD : Nat := 1
abbrev τ : Topo := Topo.v7x

variable {F : FTy → Type} [FloatOps F]

class Facts₀ : Prop where
  slices_S4096x200x65_S4096x199x64_0_1_1 : S4096x200x65.Slices ![0, 1, 1] S4096x199x64
  bcast_S199_S1x199_1 : S199.BroadcastsInDim S1x199 (![1] : Fin 1 → Fin S1x199.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1x199_S4096x199_0_1 : S1x199.BroadcastsInDim S4096x199 (![0, 1] : Fin 2 → Fin S4096x199.rank)
  bcast_S4096x1_S4096x199_0_1 : S4096x1.BroadcastsInDim S4096x199 (![0, 1] : Fin 2 → Fin S4096x199.rank)
  bcast_S4096x199_S4096x199x1_0_1 : S4096x199.BroadcastsInDim S4096x199x1 (![0, 1] : Fin 2 → Fin S4096x199x1.rank)
  bcast_S4096x199x1_S4096x199x64_0_1_2 : S4096x199x1.BroadcastsInDim S4096x199x64 (![0, 1, 2] : Fin 3 → Fin S4096x199x64.rank)
  reducesTo_S4096x199x64_S4096_d1_2 : S4096x199x64.ReducesTo [1, 2] S4096
  h_S_ : 0 < S_.numel
  bcast_S_S4096 : S_.BroadcastsInDim S4096 (![] : Fin 0 → Fin S4096.rank)
  reducesTo_S4096_S_d0 : S4096.ReducesTo [0] S_
  slices_S4096x200x2_S4096x199x2_0_0_0 : S4096x200x2.Slices ![0, 0, 0] S4096x199x2
  slices_S4096x200x2_S4096x199x2_0_1_0 : S4096x200x2.Slices ![0, 1, 0] S4096x199x2
  reducesTo_S4096x199x2_S_d0_1_2 : S4096x199x2.ReducesTo [0, 1, 2] S_
  bcast_S2_S1x1x2_2 : S2.BroadcastsInDim S1x1x2 (![2] : Fin 1 → Fin S1x1x2.rank)
  bcast_S1x1x2_S4096x200x2_0_1_2 : S1x1x2.BroadcastsInDim S4096x200x2 (![0, 1, 2] : Fin 3 → Fin S4096x200x2.rank)
  bcast_S_S4096x200x2 : S_.BroadcastsInDim S4096x200x2 (![] : Fin 0 → Fin S4096x200x2.rank)
  reducesTo_S4096x200x2_S_d0_1_2 : S4096x200x2.ReducesTo [0, 1, 2] S_

variable [Facts₀]

class Facts : Prop extends Facts₀ where

variable [Facts]
-- ==== Proof.LibBlockSum.lean ====
/-
  Sums over index sets of small rank as iterated sums over the coordinates; a sum over `Fin n` with `n = A * B` cut
  into `A` consecutive blocks of `B`; and the block of `B` consecutive leading rows of an array of rank 2 or 3.
  Nothing here depends on a program: the statements are about finite sums in a commutative monoid and about
  indices built from coordinates.
-/
import Idealize.ShloMosaic.Lib.ValueIdx

noncomputable section

open scoped BigOperators

namespace Cert.LibBlockSum

open Idealize.ShloMosaic Idealize.ShloMosaic.ValueIdx

/-! ## Sums over a rank-1 and a rank-3 index set -/

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## A sum over `Fin (A * B)` in `A` blocks of `B` -/

/-- Position `r` of block `t` lies below `A * B`. -/
theorem block_lt {A B n : Nat} (h : A * B = n) (t : Fin A) {r : Nat} (hr : r < B) : B * t.val + r < n := by
  have ht : t.val + 1 ≤ A := t.isLt
  have : B * (t.val + 1) ≤ B * A := Nat.mul_le_mul_left B ht
  rw [Nat.mul_comm B A, h, Nat.mul_add, Nat.mul_one] at this
  omega

/-- A sum over `Fin n`, `n = A * B`, is the sum over the `A` blocks of the sums over the `B` positions in a block. -/
theorem sum_blocks {M : Type*} [AddCommMonoid M] (A B : Nat) {n : Nat} (h : A * B = n) (f : Fin n → M) :
    ∑ b, f b = ∑ t : Fin A, ∑ r : Fin B, f ⟨B * t.val + r.val, block_lt h t r.isLt⟩ := by
  subst h
  rw [← Equiv.sum_comp finProdFinEquiv f, Fintype.sum_prod_type]
  refine Finset.sum_congr rfl fun t _ => Finset.sum_congr rfl fun r _ => congrArg f (Fin.ext ?_)
  show r.val + B * t.val = B * t.val + r.val
  omega

/-! ## The block of `B` leading rows -/

/-- Rows `B * t, …, B * t + B - 1` of a rank-2 array with `n = A * B` rows. -/
def rows2 {α : Type} {n k : Nat} (A B : Nat) (h : A * B = n) (X : (⟨2, ![n, k]⟩ : Shape).Idx → α) (t : Fin A) :
    (⟨2, ![B, k]⟩ : Shape).Idx → α :=
  fun y => X (ix2 ⟨B * t.val + (y 0).val, block_lt h t (idx2_lt0 y)⟩ ⟨(y 1).val, idx2_lt1 y⟩)

/-- The same at explicit coordinates. -/
theorem rows2_apply {α : Type} {n k : Nat} (A B : Nat) (h : A * B = n) (X : (⟨2, ![n, k]⟩ : Shape).Idx → α) (t : Fin A)
    (r : Fin B) (j : Fin k) :
    rows2 A B h X t (ix2 r j) = X (ix2 ⟨B * t.val + r.val, block_lt h t r.isLt⟩ j) := rfl

/-- Rows `B * t, …, B * t + B - 1` of a rank-3 array with `n = A * B` leading rows. -/
def rows3 {α : Type} {n k l : Nat} (A B : Nat) (h : A * B = n) (X : (⟨3, ![n, k, l]⟩ : Shape).Idx → α) (t : Fin A) :
    (⟨3, ![B, k, l]⟩ : Shape).Idx → α :=
  fun y => X (ix3 ⟨B * t.val + (y 0).val, block_lt h t (y 0).isLt⟩ ⟨(y 1).val, (y 1).isLt⟩ ⟨(y 2).val, (y 2).isLt⟩)

/-- The same at explicit coordinates. -/
theorem rows3_apply {α : Type} {n k l : Nat} (A B : Nat) (h : A * B = n) (X : (⟨3, ![n, k, l]⟩ : Shape).Idx → α) (t : Fin A)
    (r : Fin B) (j : Fin k) (d : Fin l) :
    rows3 A B h X t (ix3 r j d) = X (ix3 ⟨B * t.val + r.val, block_lt h t r.isLt⟩ j d) := rfl

end Cert.LibBlockSum

end
-- ==== Proof.StepScalar.lean ====
/-
  The scalar the kernel body writes into every position of its first result block: for the block's 32 individuals,
  the sum of the selected masked means (each individual's masked sum of squared step-ahead errors over its count,
  taken only where its length exceeds one).
-/
import proofs.«120563_j89902255440407_1_alg».proof.Proof.Gen.KernelIdeal.Skeleton

noncomputable section

namespace Cert.Sums

open Cert.KernelIdeal Cert.KernelIdeal.Gen Idealize.ShloMosaic Idealize.ShloMosaic.TcCoe

variable {F : FTy → Type} [FloatOps F]

/-- The scalar the kernel body broadcasts into its first output block: the sum over the block's 32 individuals of the
    selected masked means. -/
def stepScalar (v30 : IVec S32x1 32) (v39 : FVec F S32 .f32) : F .f32 :=
  have v40 : IVec S32 32 := shapeCast S32 v30 shapeCasts_S32x1_S32
  have v41 : IVec S32 32 := broadcast S32 1#32
  have v42 : IVec S32 32 := subi v40 v41
  have v43 : IVec S32 32 := broadcast S32 1#32
  have v44 : IVec S32 32 := maxsi v42 v43
  have v45 : FVec F S32 .f32 := sitofp .f32 v44
  have cst_18 : F .f32 := Scalar.ofBits .f32 0x42800000#32
  have v46 : FVec F S32 .f32 := broadcast S32 cst_18
  have v47 : FVec F S32 .f32 := mulf v45 v46
  have v48 : IVec S32 32 := broadcast S32 1#32
  have v49 : IVec S32 1 := cmpi .sgt v40 v48
  have v50 : FVec F S32 .f32 := divf v39 v47
  have cst_20 : F .f32 := Scalar.ofBits .f32 0x00000000#32
  have v51 : FVec F S32 .f32 := broadcast S32 cst_20
  have v52 : FVec F S32 .f32 := select v49 v50 v51
  have v53 : FVec F S1x32 .f32 := shapeCast S1x32 v52 shapeCasts_S32_S1x32
  have v54 : FVec F S1 .f32 := multiReduction .add [1] S1 v53 0x00000000#32 reduces_S1x32_S1 (.inl rfl) rfl
  have v55 : FVec F S1x1 .f32 := shapeCast S1x1 v54 shapeCasts_S1_S1x1
  extractAt ![0, 0] v55 inpos_S1x1_p0_0

/-- The body's first payload is that scalar in every position of the block. -/
theorem k0_pay1_eq (v30 : IVec S32x1 32) (v39 : FVec F S32 .f32) :
    k0_pay1 v30 v39 = broadcast S1x8x128 (stepScalar v30 v39) := rfl

end Cert.Sums

end
-- ==== Proof.Combine.lean ====
/-
  The part of the computation the kernel's program and the reference share, and the kernel's host-side gathering of
  its 128 per-point scalars.

  `combine s θ g` is the weighted sum both programs end with, `1·(s / 4096) + w₁·(θ / 1630208) + w₂·(g / 1638400)`
  with the same three weight words and the same three divisor words on both sides, so it is carried as ONE
  function and never opened. `partialSum A` is what the kernel's program does with a result array `A` of shape
  [128, 8, 128]: take the corner `(k, 0, 0)` of every block, flatten, and add the 128 numbers to zero. When `A` holds
  `s k` throughout block `k` (`spread s`), that is `0 + ∑ k, s k` on the extended reals.
-/
import proofs.«120563_j89902255440407_1_alg».proof.Proof.Gen.KernelIdeal
import proofs.«120563_j89902255440407_1_alg».proof.Proof.LibBlockSum
import Idealize.ShloMosaic.Lib.ValueIdx
import Idealize.ShloMosaic.Lib.Pipeline.Value
import Idealize.ShloMosaic.PureOps.Ideal.Laws

noncomputable section

open scoped BigOperators

namespace Cert.Bridge

open Cert.KernelIdeal Cert.KernelIdeal.Gen Idealize.ShloMosaic Idealize.ShloMosaic.TcCoe Idealize.ShloMosaic.ValueIdx Cert.LibBlockSum

variable {F : FTy → Type} [FloatOps F]

/-- The weighted combination of the three totals that both programs end with. -/
def combine (s θ g : FVec F S_ .f32) : FVec F S_ .f32 :=
  addf (addf (mulf (constant S_ .f32 0x3F800000#32) (Host.divf s (constant S_ .f32 0x45800000#32)))
      (mulf (constant S_ .f32 0x3DCCCCCD#32) (Host.divf θ (constant S_ .f32 0x49C70000#32))))
    (mulf (constant S_ .f32 0x3C23D70A#32) (Host.divf g (constant S_ .f32 0x49C80000#32)))

/-- The kernel's host side on one result array: the corners `(k, 0, 0)`, flattened, added to zero. -/
def partialSum (A : FVec F S128x8x128 .f32) : FVec F S_ .f32 :=
  Host.reduceAdd (shapeCast S128 (extractStridedSlice S128x1x1 ![0, 0, 0] A slices_S128x8x128_S128x1x1_0_0_0) shapeCasts_S128x1x1_S128)
    (constant S_ .f32 0x00000000#32) reducesTo_S128_S_d0 h_S_

/-- A result array that holds `s k` everywhere in block `k`. -/
def spread (s : Fin 128 → F .f32) : FVec F S128x8x128 .f32 := fun i => s ⟨(i 0).val, (i 0).isLt⟩

/-- The flattened corners of `spread s` are `s`. -/
theorem corners_spread (s : Fin 128 → F .f32) (k : Fin 128) :
    shapeCast S128 (extractStridedSlice S128x1x1 ![0, 0, 0] (spread s) slices_S128x8x128_S128x1x1_0_0_0) shapeCasts_S128x1x1_S128 (ix1 k) = s k := by
  rw [shapeCast_apply _ shapeCasts_S128x1x1_S128 (ix1 k) (ix3 k (0 : Fin 1) (0 : Fin 1)) (by
    rw [Shape.rowMajor_val_three, Shape.rowMajor_val_one]
    show (k.val * 1 + 0) * 1 + 0 = k.val
    omega)]
  rw [extractStridedSlice_apply ![0, 0, 0] (spread s) slices_S128x8x128_S128x1x1_0_0_0 (ix3 k (0 : Fin 1) (0 : Fin 1))
    (ix3 k (0 : Fin 8) (0 : Fin 128)) (fun a => match a with
      | ⟨0, _⟩ => by show k.val = 0 + k.val; omega
      | ⟨1, _⟩ => by show (0 : Nat) = 0 + 0; omega
      | ⟨2, _⟩ => by show (0 : Nat) = 0 + 0; omega)]
  rfl

/-- On the extended reals the gathered total of `spread s` is zero's word plus the sum of the 128 scalars. -/
theorem partialSum_spread (s : Fin 128 → EReal) (i : S_.Idx) :
    partialSum (F := Ideal) (spread (F := Ideal) s) i = Ideal.ofBits .f32 0x00000000#32 + ∑ k : Fin 128, s k := by
  unfold partialSum
  generalize hy : shapeCast S128 (extractStridedSlice S128x1x1 ![0, 0, 0] (spread (F := Ideal) s) slices_S128x8x128_S128x1x1_0_0_0) shapeCasts_S128x1x1_S128 = y
  simp only [Host.reduceAdd, Ideal.hostReduceAdd_def]
  rw [Ideal.hostReduceAdd_total reducesTo_S128_S_d0 (fun b => b.elim0) y _ i, sum_idx1]
  refine congrArg₂ (· + ·) rfl (Finset.sum_congr rfl fun k _ => ?_)
  rw [← hy]
  exact corners_spread (F := Ideal) s k

end Cert.Bridge

end
-- ==== Proof.KernelBlocks.lean ====
/-
  What the kernel's run leaves in its three result arrays, as functions of the arrays the region finds.

  The grid has 128 points; point `t` reads rows `32 t … 32 t + 31` of every batched operand (the tiled divisor is read
  whole) and writes ONE scalar, in all 8 × 128 positions of block `t` of each result: the block's share of the
  step-ahead term, of the drift term and of the global-deviation term. So each result array holds, at index
  `(t, ·, ·)`, that point's scalar; the blocks `(t, 0, 0)` tile the array.
-/
import proofs.«120563_j89902255440407_1_alg».proof.Proof.Gen.KernelIdeal.Frame
import proofs.«120563_j89902255440407_1_alg».proof.Proof.LibBlockSum
import proofs.«120563_j89902255440407_1_alg».proof.Proof.StepScalar
import proofs.«120563_j89902255440407_1_alg».proof.Proof.Combine
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat Cfg Window)
open Idealize.ShloMosaic.ValueIdx Cert.LibBlockSum Cert.Bridge

variable {F : FTy → Type} [FloatOps F]
variable (m : (ℓ : Loc nD τ sig) → Buf (Elt F) ℓ)

/-- A grid point as a number below 128. -/
def pt (t : Fin cfg0.N) : Fin 128 := ⟨t.val, by have h := t.isLt; have e : cfg0.N = 128 := N_0; omega⟩

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

/-- The printed index maps over the grid: every batched window's block index is `(t, 0, …)`, the divisor's is `0`. -/
theorem idx_facts : ∀ t : Fin cfg0.N,
    win0_0.index t (0 : Fin 2) = t.val ∧ win0_0.index t (1 : Fin 2) = 0
    ∧ win0_1.index t (0 : Fin 1) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-! ## The input blocks are rows of the arrays -/

/-- Window 0's block at point `t`: rows `32 t …` of the merged parameter array. -/
theorem iblk0 (c : Dev nD) (t : Fin cfg0.N) :
    iblk m c 0 t = rows2 128 32 rfl (V m c main_v0) (pt t) := by
  funext y
  show V m c main_v0 (((cfg0.win 0).blk t).view.emb y) = V m c main_v0 _
  refine congrArg (V m c main_v0) ?_
  obtain ⟨e0, e1, -⟩ := idx_facts t
  funext a; apply Fin.ext
  match a with
  | ⟨0, _⟩ => show win0_0.index t (0 : Fin 2) * 32 + 1 * (y 0).val = 32 * t.val + (y 0).val; omega
  | ⟨1, _⟩ => show win0_0.index t (1 : Fin 2) * 400 + 1 * (y 1).val = (y 1).val; omega

/-- Window 1's block at every point: the whole tiled divisor. -/
theorem iblk1 (c : Dev nD) (t : Fin cfg0.N) : iblk m c 1 t = V m c main_v3 := by
  funext y
  show V m c main_v3 (((cfg0.win 1).blk t).view.emb y) = V m c main_v3 y
  refine congrArg (V m c main_v3) ?_
  obtain ⟨-, -, e2, -⟩ := idx_facts t
  funext a; apply Fin.ext
  match a with
  | ⟨0, _⟩ => show win0_1.index t (0 : Fin 1) * 400 + 1 * (y 0).val = (y 0).val; omega

/-- Window 2's block at point `t`: rows `32 t …` of the trajectories. -/
theorem iblk2 (c : Dev nD) (t : Fin cfg0.N) :
    iblk m c 2 t = rows3 128 32 rfl (V m c main_arg4) (pt t) := by
  funext y
  show V m c main_arg4 (((cfg0.win 2).blk t).view.emb y) = V m c main_arg4 _
  refine congrArg (V m c main_arg4) ?_
  obtain ⟨-, -, -, e3, e4, e5, -⟩ := idx_facts t
  funext a; apply Fin.ext
  match a with
  | ⟨0, _⟩ => show win0_2.index t (0 : Fin 3) * 32 + 1 * (y 0).val = 32 * t.val + (y 0).val; omega
  | ⟨1, _⟩ => show win0_2.index t (1 : Fin 3) * 200 + 1 * (y 1).val = (y 1).val; omega
  | ⟨2, _⟩ => show win0_2.index t (2 : Fin 3) * 65 + 1 * (y 2).val = (y 2).val; omega

/-- Window 3's block at point `t`: rows `32 t …` of the step-ahead predictions. -/
theorem iblk3 (c : Dev nD) (t : Fin cfg0.N) :
    iblk m c 3 t = rows3 128 32 rfl (V m c main_arg3) (pt t) := by
  funext y
  show V m c main_arg3 (((cfg0.win 3).blk t).view.emb y) = V m c main_arg3 _
  refine congrArg (V m c main_arg3) ?_
  obtain ⟨-, -, -, -, -, -, e6, e7, e8, -⟩ := idx_facts t
  funext a; apply Fin.ext
  match a with
  | ⟨0, _⟩ => show win0_3.index t (0 : Fin 3) * 32 + 1 * (y 0).val = 32 * t.val + (y 0).val; omega
  | ⟨1, _⟩ => show win0_3.index t (1 : Fin 3) * 199 + 1 * (y 1).val = (y 1).val; omega
  | ⟨2, _⟩ => show win0_3.index t (2 : Fin 3) * 64 + 1 * (y 2).val = (y 2).val; omega

/-- Window 4's block at point `t`: rows `32 t …` of the lengths column. -/
theorem iblk4 (c : Dev nD) (t : Fin cfg0.N) :
    iblk m c 4 t = rows2 128 32 rfl (V m c main_v4) (pt t) := by
  funext y
  show V m c main_v4 (((cfg0.win 4).blk t).view.emb y) = V m c main_v4 _
  refine congrArg (V m c main_v4) ?_
  obtain ⟨-, -, -, -, -, -, -, -, -, e9, e10, -⟩ := idx_facts t
  funext a; apply Fin.ext
  match a with
  | ⟨0, _⟩ => show win0_4.index t (0 : Fin 2) * 32 + 1 * (y 0).val = 32 * t.val + (y 0).val; omega
  | ⟨1, _⟩ => show win0_4.index t (1 : Fin 2) * 1 + 1 * (y 1).val = (y 1).val; omega

/-! ## Each point's three scalars -/

/-- Point `k`'s share of the drift term: the body's drift payload of rows `32 k …`. -/
def driftAt (X0 : FVec F S4096x400 .f32) (k : Fin 128) : F .f32 := k0_pay5 (rows2 128 32 rfl X0 k)

/-- Point `k`'s share of the global-deviation term. -/
def globalAt (X0 : FVec F S4096x400 .f32) (Y : FVec F S400 .f32) (k : Fin 128) : F .f32 :=
  k0_pay6 (rows2 128 32 rfl X0 k) Y

/-- Point `k`'s share of the step-ahead term. -/
def stepAt (cov : FVec F S4096x200x65 .f32) (stp : FVec F S4096x199x64 .f32) (len : IVec S4096x1 32) (k : Fin 128) : F .f32 :=
  Cert.Sums.stepScalar (k0_pay7 (F := F) (rows2 128 32 rfl len k))
    (k0_pay8 (rows3 128 32 rfl cov k) (rows3 128 32 rfl stp k) (rows2 128 32 rfl len k))

/-! ## What each point writes back -/

/-- An index of a result array is in point `t`'s block iff each coordinate is in the block's range on its axis. -/
theorem mem_blk6 (t : Fin cfg0.N) (i : S128x8x128.Idx) :
    i ∈ ((cfg0.win 6).blk t).view.set ↔ ∀ a : Fin 3, win0_6.index t a * S1x8x128.size a ≤ (i a).val ∧ (i a).val < win0_6.index t a * S1x8x128.size a + S1x8x128.size a := by
  show i ∈ ((View.whole main_v5_1).slice (win0_6.rect t)).set ↔ _
  rw [View.set_slice_whole, Rect.mem_set_unit]
  exact Iff.rfl

/-- Point `t` writes back block `t` of the array that holds every point's drift scalar throughout its block. -/
theorem flushed6 (c : Dev nD) (t : Fin cfg0.N) :
    (dats m 0 c).flushed 6 t = ((cfg0.win 6).blk t).view.read (Elt F) (spread (driftAt (V m c main_v0))) := by
  show (cfg0.win 6).cut (grid0.coords t) ((dats m 0 c).after 6 t) = _
  rw [after0_6]
  unfold out0_6
  rw [View.canon_unit_zero hz3]
  simp only [View.ld_unit_zero (S := S32x400) hz2]
  rw [iblk0]
  obtain ⟨-, -, -, -, -, -, -, -, -, -, -, -, -, -, e14, -⟩ := idx_facts t
  funext j
  show k0_pay5 (rows2 128 32 rfl (V m c main_v0) (pt t)) = k0_pay5 (rows2 128 32 rfl (V m c main_v0) _)
  refine congrArg (fun k => k0_pay5 (rows2 128 32 rfl (V m c main_v0) k)) (Fin.ext ?_)
  show t.val = win0_6.index t (0 : Fin 3) * 1 + 1 * (j 0).val
  have hj : (j 0).val < 1 := (j 0).isLt
  omega

/-- Every index of the drift result lies in the block of the point its first coordinate names. -/
theorem cover6 (i : S128x8x128.Idx) : ∃ t : Fin cfg0.N, (cfg0.win 6).flush t = true ∧ i ∈ ((cfg0.win 6).blk t).view.set := by
  have hi0 : (i 0).val < 128 := (i 0).isLt
  have hi1 : (i 1).val < 8 := (i 1).isLt
  have hi2 : (i 2).val < 128 := (i 2).isLt
  refine ⟨⟨(i 0).val, by have e : cfg0.N = 128 := N_0; omega⟩, flush0_6 _, ?_⟩
  rw [mem_blk6]
  obtain ⟨-, -, -, -, -, -, -, -, -, -, -, -, -, -, e14, e15, e16, -⟩ := idx_facts ⟨(i 0).val, by have e : cfg0.N = 128 := N_0; omega⟩
  intro a
  match a with
  | ⟨0, _⟩ => show win0_6.index _ (0 : Fin 3) * 1 ≤ (i 0).val ∧ (i 0).val < win0_6.index _ (0 : Fin 3) * 1 + 1; simp only [] at e14; omega
  | ⟨1, _⟩ => show win0_6.index _ (1 : Fin 3) * 8 ≤ (i 1).val ∧ (i 1).val < win0_6.index _ (1 : Fin 3) * 8 + 8; omega
  | ⟨2, _⟩ => show win0_6.index _ (2 : Fin 3) * 128 ≤ (i 2).val ∧ (i 2).val < win0_6.index _ (2 : Fin 3) * 128 + 128; omega

/-- The drift result after the run: every point's drift scalar throughout its block. -/
theorem final6 (c : Dev nD) : (dats m 0 c).arrAt 6 cfg0.N = spread (driftAt (V m c main_v0)) :=
  (dats m 0 c).arrAt_eq_of_cover 6 _ (fun t _ => flushed6 m c t) cover6

/-- An index of a result array is in point `t`'s block iff each coordinate is in the block's range on its axis. -/
theorem mem_blk5 (t : Fin cfg0.N) (i : S128x8x128.Idx) :
    i ∈ ((cfg0.win 5).blk t).view.set ↔ ∀ a : Fin 3, win0_5.index t a * S1x8x128.size a ≤ (i a).val ∧ (i a).val < win0_5.index t a * S1x8x128.size a + S1x8x128.size a := by
  show i ∈ ((View.whole main_v5_0).slice (win0_5.rect t)).set ↔ _
  rw [View.set_slice_whole, Rect.mem_set_unit]
  exact Iff.rfl

/-- Point `t` writes back block `t` of the array that holds every point's step-ahead scalar throughout its block. -/
theorem flushed5 (c : Dev nD) (t : Fin cfg0.N) :
    (dats m 0 c).flushed 5 t = ((cfg0.win 5).blk t).view.read (Elt F) (spread (stepAt (V m c main_arg4) (V m c main_arg3) (V m c main_v4))) := by
  show (cfg0.win 5).cut (grid0.coords t) ((dats m 0 c).after 5 t) = _
  rw [after0_5]
  unfold out0_5
  rw [View.canon_unit_zero hz3]
  simp only [View.ld_unit_zero (S := S32x1) hz2, View.ld_unit_zero (S := S32x200x65) hz3, View.ld_unit_zero (S := S32x199x64) hz3]
  rw [iblk2, iblk3, iblk4, Cert.Sums.k0_pay1_eq]
  obtain ⟨-, -, -, -, -, -, -, -, -, -, -, e0, -⟩ := idx_facts t
  funext j
  show stepAt (V m c main_arg4) (V m c main_arg3) (V m c main_v4) (pt t) = stepAt (V m c main_arg4) (V m c main_arg3) (V m c main_v4) _
  refine congrArg (stepAt (V m c main_arg4) (V m c main_arg3) (V m c main_v4)) (Fin.ext ?_)
  show t.val = win0_5.index t (0 : Fin 3) * 1 + 1 * (j 0).val
  have hj : (j 0).val < 1 := (j 0).isLt
  omega

/-- Every index of the step-ahead result lies in the block of the point its first coordinate names. -/
theorem cover5 (i : S128x8x128.Idx) : ∃ t : Fin cfg0.N, (cfg0.win 5).flush t = true ∧ i ∈ ((cfg0.win 5).blk t).view.set := by
  have hi0 : (i 0).val < 128 := (i 0).isLt
  have hi1 : (i 1).val < 8 := (i 1).isLt
  have hi2 : (i 2).val < 128 := (i 2).isLt
  refine ⟨⟨(i 0).val, by have e : cfg0.N = 128 := N_0; omega⟩, flush0_5 _, ?_⟩
  rw [mem_blk5]
  obtain ⟨-, -, -, -, -, -, -, -, -, -, -, e0, e1, e2, -⟩ := idx_facts ⟨(i 0).val, by have e : cfg0.N = 128 := N_0; omega⟩
  intro a
  match a with
  | ⟨0, _⟩ => show win0_5.index _ (0 : Fin 3) * 1 ≤ (i 0).val ∧ (i 0).val < win0_5.index _ (0 : Fin 3) * 1 + 1; simp only [] at e0; omega
  | ⟨1, _⟩ => show win0_5.index _ (1 : Fin 3) * 8 ≤ (i 1).val ∧ (i 1).val < win0_5.index _ (1 : Fin 3) * 8 + 8; omega
  | ⟨2, _⟩ => show win0_5.index _ (2 : Fin 3) * 128 ≤ (i 2).val ∧ (i 2).val < win0_5.index _ (2 : Fin 3) * 128 + 128; omega

/-- The step-ahead result after the run: every point's step-ahead scalar throughout its block. -/
theorem final5 (c : Dev nD) : (dats m 0 c).arrAt 5 cfg0.N = spread (stepAt (V m c main_arg4) (V m c main_arg3) (V m c main_v4)) :=
  (dats m 0 c).arrAt_eq_of_cover 5 _ (fun t _ => flushed5 m c t) cover5

/-- An index of a result array is in point `t`'s block iff each coordinate is in the block's range on its axis. -/
theorem mem_blk7 (t : Fin cfg0.N) (i : S128x8x128.Idx) :
    i ∈ ((cfg0.win 7).blk t).view.set ↔ ∀ a : Fin 3, win0_7.index t a * S1x8x128.size a ≤ (i a).val ∧ (i a).val < win0_7.index t a * S1x8x128.size a + S1x8x128.size a := by
  show i ∈ ((View.whole main_v5_2).slice (win0_7.rect t)).set ↔ _
  rw [View.set_slice_whole, Rect.mem_set_unit]
  exact Iff.rfl

/-- Point `t` writes back block `t` of the array that holds every point's global-deviation scalar throughout its block. -/
theorem flushed7 (c : Dev nD) (t : Fin cfg0.N) :
    (dats m 0 c).flushed 7 t = ((cfg0.win 7).blk t).view.read (Elt F) (spread (globalAt (V m c main_v0) (V m c main_v3))) := by
  show (cfg0.win 7).cut (grid0.coords t) ((dats m 0 c).after 7 t) = _
  rw [after0_7]
  unfold out0_7
  rw [View.canon_unit_zero hz3]
  simp only [View.ld_unit_zero (S := S32x400) hz2, View.ld_unit_zero (S := S400) hz1]
  rw [iblk0, iblk1]
  obtain ⟨-, -, -, -, -, -, -, -, -, -, -, -, -, -, -, -, -, e0, -⟩ := idx_facts t
  funext j
  show globalAt (V m c main_v0) (V m c main_v3) (pt t) = globalAt (V m c main_v0) (V m c main_v3) _
  refine congrArg (globalAt (V m c main_v0) (V m c main_v3)) (Fin.ext ?_)
  show t.val = win0_7.index t (0 : Fin 3) * 1 + 1 * (j 0).val
  have hj : (j 0).val < 1 := (j 0).isLt
  omega

/-- Every index of the global-deviation result lies in the block of the point its first coordinate names. -/
theorem cover7 (i : S128x8x128.Idx) : ∃ t : Fin cfg0.N, (cfg0.win 7).flush t = true ∧ i ∈ ((cfg0.win 7).blk t).view.set := by
  have hi0 : (i 0).val < 128 := (i 0).isLt
  have hi1 : (i 1).val < 8 := (i 1).isLt
  have hi2 : (i 2).val < 128 := (i 2).isLt
  refine ⟨⟨(i 0).val, by have e : cfg0.N = 128 := N_0; omega⟩, flush0_7 _, ?_⟩
  rw [mem_blk7]
  obtain ⟨-, -, -, -, -, -, -, -, -, -, -, -, -, -, -, -, -, e0, e1, e2⟩ := idx_facts ⟨(i 0).val, by have e : cfg0.N = 128 := N_0; omega⟩
  intro a
  match a with
  | ⟨0, _⟩ => show win0_7.index _ (0 : Fin 3) * 1 ≤ (i 0).val ∧ (i 0).val < win0_7.index _ (0 : Fin 3) * 1 + 1; simp only [] at e0; omega
  | ⟨1, _⟩ => show win0_7.index _ (1 : Fin 3) * 8 ≤ (i 1).val ∧ (i 1).val < win0_7.index _ (1 : Fin 3) * 8 + 8; omega
  | ⟨2, _⟩ => show win0_7.index _ (2 : Fin 3) * 128 ≤ (i 2).val ∧ (i 2).val < win0_7.index _ (2 : Fin 3) * 128 + 128; omega

/-- The global-deviation result after the run: every point's global-deviation scalar throughout its block. -/
theorem final7 (c : Dev nD) : (dats m 0 c).arrAt 7 cfg0.N = spread (globalAt (V m c main_v0) (V m c main_v3)) :=
  (dats m 0 c).arrAt_eq_of_cover 7 _ (fun t _ => flushed7 m c t) cover7

end Cert.KernelIdeal.Blocks

end
-- ==== Proof.KernelTail.lean ====
/-
  The kernel's program after its one region: from the three result arrays to the returned scalar.

  The 26 host operations after the region take the corner of every block of each result array, add the 128 corners of
  each, and form the weighted combination. Read over ANY contents `W` of the buffers they start from, the returned
  scalar is `combine` of the three `partialSum`s of the result arrays in `W`; after the region those arrays are what the
  run's proof data say, so the scalar is `combine` of their `partialSum`s.
-/
import proofs.«120563_j89902255440407_1_alg».proof.Proof.Gen.KernelIdeal.Frame
import proofs.«120563_j89902255440407_1_alg».proof.Proof.Combine
import Idealize.ShloMosaic.Lib.StableHlo.Run
import Idealize.ShloMosaic.Lib.Pipeline.Value

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo Cert.Bridge
open Idealize.ShloMosaic.Pipeline (Dat Cfg Window)

variable {F : FTy → Type} [FloatOps F]

set_option maxHeartbeats 8000000 in
/-- The host operations after the region, from any contents `W`: the returned scalar is the weighted combination of
    the gathered totals of the three result arrays as `W` holds them. -/
theorem after_tail (W : Valuation τ sig (Elt F)) :
    StableHlo.after (hostOps1 (F := F)) W (Proc.devRef .tc main_v22)
      = combine (partialSum (W (Proc.devRef .tc main_v5_0))) (partialSum (W (Proc.devRef .tc main_v5_1)))
          (partialSum (W (Proc.devRef .tc main_v5_2))) := by
  after_results
  rfl

variable (m : (ℓ : Loc nD τ sig) → Buf (Elt F) ℓ)

/-- After the run the returned scalar is the weighted combination of the gathered totals of the three result arrays
    the run's proof data describe. -/
theorem result_eq (c : Dev nD) :
    Pipeline.afterTail₀ cfgs (dats m) 0 (V0 m) [hostOps1] c main_v22
      = combine (partialSum ((dats m 0 c).arrAt 5 cfg0.N)) (partialSum ((dats m 0 c).arrAt 6 cfg0.N))
          (partialSum ((dats m 0 c).arrAt 7 cfg0.N)) := by
  unfold Pipeline.afterTail₀
  simp only [List.flatten_cons, List.flatten_nil, List.append_nil]
  rw [after_tail]
  have e5 := Pipeline.withArrays_arr spec0 launch0.win.arr_inj c (V0 m c) (fun w => (dats m 0 c).arrAt w cfg0.N) 5
  have e6 := Pipeline.withArrays_arr spec0 launch0.win.arr_inj c (V0 m c) (fun w => (dats m 0 c).arrAt w cfg0.N) 6
  have e7 := Pipeline.withArrays_arr spec0 launch0.win.arr_inj c (V0 m c) (fun w => (dats m 0 c).arrAt w cfg0.N) 7
  exact congr (congr (congrArg combine (congrArg partialSum e5)) (congrArg partialSum e6)) (congrArg partialSum e7)

end Cert.KernelIdeal.Tail

end
-- ==== Proof.HostPrefix.lean ====
/-
  What the region finds in the three arrays the host writes before it: the parameters merged to [4096, 400] (a
  reshape of the argument), the divisor tiled to [400] (the two-entry argument reshaped to [1, 2], broadcast to
  [200, 2], reshaped), and the lengths as a column [4096, 1] (a reshape of the argument).
-/
import proofs.«120563_j89902255440407_1_alg».proof.Proof.Gen.KernelIdeal.Frame
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The merged parameter array is the reshape of the parameters as launched. -/
theorem V_merged (c : Dev nD) :
    V m c main_v0 = shapeCast S4096x400 (m ((c : Thread nD τ).loc main_arg1)) shapeCasts_S4096x200x2_S4096x400 := by
  show StableHlo.after hostOps0 (fun b => m (c, b)) (Proc.devRef .tc main_v0) = _
  after_results
  rfl

/-- The tiled divisor is the two-entry argument as launched, reshaped, broadcast over 200 rows, and flattened. -/
theorem V_tiled (c : Dev nD) :
    V m c main_v3 = shapeCast S400 (broadcastInDim S200x2 ![0, 1] bcast_S1x2_S200x2_0_1
      (shapeCast S1x2 (m ((c : Thread nD τ).loc main_arg0)) shapeCasts_S2_S1x2)) shapeCasts_S200x2_S400 := by
  show StableHlo.after hostOps0 (fun b => m (c, b)) (Proc.devRef .tc main_v3) = _
  after_results
  rfl

/-- The lengths column is the reshape of the lengths as launched. -/
theorem V_column (c : Dev nD) :
    V m c main_v4 = shapeCast S4096x1 (m ((c : Thread nD τ).loc main_arg5)) shapeCasts_S4096_S4096x1 := by
  show StableHlo.after hostOps0 (fun b => m (c, b)) (Proc.devRef .tc main_v4) = _
  after_results
  rfl

end Cert.KernelIdeal.HostPrefix

end
-- ==== Proof.KernelValue.lean ====
/-
  The kernel's program, run: it returns the weighted combination of three gathered totals, each the 128 per-point
  scalars of one result array, every scalar a function of rows `32 k … 32 k + 31` of the arguments as launched (the
  parameters merged to [4096, 400], the divisor tiled to [400], the lengths as a column); and it leaves its six
  argument arrays as launched.
-/
import proofs.«120563_j89902255440407_1_alg».proof.Proof.KernelBlocks
import proofs.«120563_j89902255440407_1_alg».proof.Proof.KernelTail
import proofs.«120563_j89902255440407_1_alg».proof.Proof.HostPrefix

set_option maxRecDepth 16384

noncomputable section

namespace Cert.KernelIdeal.Result

open Cert.KernelIdeal Cert.KernelIdeal.Gen Idealize.ShloMosaic Idealize.ShloMosaic.TcCoe Idealize.SL.Sem Cert.Bridge
open Cert.KernelIdeal.Blocks Cert.KernelIdeal.HostPrefix
open Idealize.ShloMosaic.Pipeline (Dat Cfg Window)

variable {F : FTy → Type} [FloatOps F]
variable (m : (ℓ : Loc nD τ sig) → Buf (Elt F) ℓ) (ρ : Dev nD → PrngReg)

/-- The returned scalar as a function of the arguments as launched. -/
def result (c : Dev nD) : FVec F S_ .f32 :=
  combine
    (partialSum (spread (stepAt (m ((c : Thread nD τ).loc main_arg4)) (m ((c : Thread nD τ).loc main_arg3))
      (shapeCast S4096x1 (m ((c : Thread nD τ).loc main_arg5)) shapeCasts_S4096_S4096x1))))
    (partialSum (spread (driftAt (shapeCast S4096x400 (m ((c : Thread nD τ).loc main_arg1)) shapeCasts_S4096x200x2_S4096x400))))
    (partialSum (spread (globalAt (shapeCast S4096x400 (m ((c : Thread nD τ).loc main_arg1)) shapeCasts_S4096x200x2_S4096x400)
      (shapeCast S400 (broadcastInDim S200x2 ![0, 1] bcast_S1x2_S200x2_0_1
        (shapeCast S1x2 (m ((c : Thread nD τ).loc main_arg0)) shapeCasts_S2_S1x2)) shapeCasts_S200x2_S400))))

/-- After the host operations that follow the region, the returned buffer holds `result`. -/
theorem tail_result (c : Dev nD) :
    Pipeline.afterTail₀ cfgs (dats m) 0 (V0 m) [hostOps1] c main_v22 = result m c := by
  rw [Cert.KernelIdeal.Tail.result_eq, final5, final6, final7, V_main_arg4, V_main_arg3, V_merged, V_tiled, V_column]
  rfl

/-- Every weakly fair execution of the kernel's program terminates with the returned buffer at `result` and the six
    argument arrays as launched: the frame run's post read at the returned buffer (an unscoped buffer no window
    stages, so it holds what the host operations after the region leave) and at the arguments. -/
theorem run : θ_run defs (onTc (τ := τ) (main (F := F))) ⟨m, fun _ => 0, ρ⟩ (fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v22 (Pipeline.mem_restRefs_of main_v22 (by decide) (by decide))).trans (tail_result m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      ((h c).1 2).trans (((dats m 0 c).arrAt_in 2 rfl _).trans ((A_eq m c 2).trans (V_main_arg4 m c))),
      (((h c).2 main_arg5 (Pipeline.mem_restRefs_of main_arg5 (by decide) (by decide))).trans (W_main_arg5 m (dats m) c))⟩)
    (run_main m ρ)

end Cert.KernelIdeal.Result

end
-- ==== Proof.RefSplit.lean ====
/-
  The reference's returned scalar is the same weighted combination, of its own three totals: the masked means summed
  over the 4096 individuals, the squared consecutive-step differences summed over [4096, 199, 2], and the squared
  relative deviations summed over [4096, 200, 2]. On the extended reals each total is zero's word plus the sum over
  its index set.
-/
import proofs.«120563_j89902255440407_1_alg».proof.Proof.Gen.ReferenceIdeal.Read
import proofs.«120563_j89902255440407_1_alg».proof.Proof.Combine

noncomputable section

open scoped BigOperators

namespace Cert.Bridge

open Idealize.ShloMosaic Idealize.ShloMosaic.TcCoe Cert.ReferenceIdeal.Read

variable {F : FTy → Type} [FloatOps F]

/-- The reference's result is the weighted combination of its three totals. -/
theorem ref_split (x0 : FVec F Cert.ReferenceIdeal.S2 .f32) (x1 : FVec F Cert.ReferenceIdeal.S4096x200x2 .f32)
    (x3 : FVec F Cert.ReferenceIdeal.S4096x199x64 .f32) (x4 : FVec F Cert.ReferenceIdeal.S4096x200x65 .f32)
    (x5 : IVec Cert.ReferenceIdeal.S4096 32) :
    val_main_v47 (F := F) x0 x1 x3 x4 x5
      = combine (val_main_v27 (F := F) x3 x4 x5) (val_main_v33 (F := F) x1) (val_main_v41 (F := F) x0 x1) := rfl

/-- On the extended reals the reference's step-ahead total is zero's word plus the sum of the individuals' values. -/
theorem ref_step_total (x3 : FVec Ideal Cert.ReferenceIdeal.S4096x199x64 .f32) (x4 : FVec Ideal Cert.ReferenceIdeal.S4096x200x65 .f32)
    (x5 : IVec Cert.ReferenceIdeal.S4096 32) (i : Cert.ReferenceIdeal.S_.Idx) :
    val_main_v27 (F := Ideal) x3 x4 x5 i
      = Ideal.ofBits .f32 0x00000000#32 + ∑ b : Cert.ReferenceIdeal.S4096.Idx, val_main_v26 (F := Ideal) x3 x4 x5 b :=
  val_main_v27_apply x3 x4 x5 i

/-- On the extended reals the reference's drift total is zero's word plus the sum over [4096, 199, 2]. -/
theorem ref_drift_total (x1 : FVec Ideal Cert.ReferenceIdeal.S4096x200x2 .f32) (i : Cert.ReferenceIdeal.S_.Idx) :
    val_main_v33 (F := Ideal) x1 i
      = Ideal.ofBits .f32 0x00000000#32 + ∑ j : Cert.ReferenceIdeal.S4096x199x2.Idx, val_main_v32 (F := Ideal) x1 j :=
  val_main_v33_apply x1 i

/-- On the extended reals the reference's global-deviation total is zero's word plus the sum over [4096, 200, 2]. -/
theorem ref_global_total (x0 : FVec Ideal Cert.ReferenceIdeal.S2 .f32) (x1 : FVec Ideal Cert.ReferenceIdeal.S4096x200x2 .f32)
    (i : Cert.ReferenceIdeal.S_.Idx) :
    val_main_v41 (F := Ideal) x0 x1 i
      = Ideal.ofBits .f32 0x00000000#32 + ∑ j : Cert.ReferenceIdeal.S4096x200x2.Idx, val_main_v40 (F := Ideal) x0 x1 j :=
  val_main_v41_apply x0 x1 i

end Cert.Bridge

end
-- ==== Proof.Domain.lean ====
/-
  What the precondition says of the lengths: every individual's length is at most 200, the number of time steps (as a
  signed 32-bit word). The precondition is a conjunction of six `all`s; the last is `all (lengths ≤ 200)`, a reduce
  by `and` of a signed word comparison against the broadcast constant 200, so it is 1 only if the comparison is 1 at
  every individual.
-/
import proofs.«120563_j89902255440407_1_alg».proof.Pre_finite_inputs
import proofs.«120563_j89902255440407_1_alg».proof.Proof.Gen.Pre_finite_inputs
import Idealize.ShloMosaic.Lib.ReduceAll
import Idealize.ShloMosaic.Lib.Affine
import Idealize.ShloMosaic.Lib.ValueIdx
import Idealize.ShloMosaic.Lib.StableHlo.Predicate

noncomputable section

namespace Cert.Domain

open Idealize.ShloMosaic Idealize.ShloMosaic.TcCoe Cert.Pre_finite_inputs Cert.Pre_finite_inputs.Gen

variable {F : FTy → Type} [FloatOps F]

instance : Subsingleton S_.Idx := ⟨fun a b => funext fun d => d.elim0⟩

/-- Under the precondition every length is at most 200. -/
theorem lengths_le (a0 : FVec F S2 .f32) (a1 : FVec F S4096x200x2 .f32) (a2 : FVec F S4096x200x64 .f32)
    (a3 : FVec F S4096x199x64 .f32) (a4 : FVec F S4096x200x65 .f32) (a5 : IVec S4096 32)
    (h : Cert.Pre_finite_inputs.fn (F := F) a0 a1 a2 a3 a4 a5 = fun _ => 1#1) (i : S4096.Idx) :
    (a5 i).toInt ≤ 200 := by
  have h0 := congrFun h ValueIdx.ix0
  dsimp only [Cert.Pre_finite_inputs.fn, Cert.Pre_finite_inputs.fn_part1] at h0
  have h1 := (IntOp.andi_eq_one.mp h0).2
  have h2 := Host.reduce_andi_all _ _ _ _ _ h1 i
  have h3 := IntOp.cmpi_sle.mp h2
  rw [StableHlo.Predicate.bcast_scalar bcast_S_S4096 h_S_] at h3
  exact h3

end Cert.Domain

end
-- ==== Proof.DriftSum.lean ====
/-
  The drift term. The grid's 128 points each sum, over their 32 rows of the array reshaped [4096, 200, 2] → [4096, 400]
  and over the 398 columns j, the squared difference of the entries at columns j and j + 2. With j = 2 s + p the entry at
  column j of row b is the array at (b, s, p) and the entry at column j + 2 is the array at (b, s + 1, p), so the 128
  partial sums together are the sum over (b, s, p) of the squared one-step differences: the same 4096 · 199 · 2 terms,
  grouped by blocks of 32 rows and by pairs of columns.
-/
import proofs.«120563_j89902255440407_1_alg».proof.Proof.Gen.KernelIdeal.Skeleton
import proofs.«120563_j89902255440407_1_alg».proof.Proof.Gen.ReferenceIdeal.Read
import proofs.«120563_j89902255440407_1_alg».proof.Proof.LibBlockSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Sums

open Cert.KernelIdeal Cert.KernelIdeal.Gen Idealize.ShloMosaic Idealize.ShloMosaic.TcCoe Idealize.ShloMosaic.ValueIdx Cert.LibBlockSum

/-! ## The block's payload as an iterated sum -/

/-- Over a rank-2 shape summed along its second axis, the index above row `r` with column `k` inserted is `(r, k)`. -/
theorem drift_lift_axis1 {n m : Nat} (h : (⟨2, ![n, m]⟩ : Shape).Reduces [1] ⟨1, ![n]⟩) (r : Fin n) (k : Fin m) :
    h.lift (ix1 r) k = ix2 r k := by
  funext c
  match c with
  | ⟨0, _⟩ => exact Fin.ext rfl
  | ⟨1, _⟩ => exact Fin.ext rfl

/-- The sum of a length-32 vector as the block takes it: the vector viewed as one row, summed along that row, and the
    one entry of the result read out. -/
theorem drift_sum32 (v : FVec Ideal S32 .f32) :
    extractAt ![0, 0] (shapeCast S1x1 (multiReduction (F := Ideal) .add [1] S1 (shapeCast S1x32 v shapeCasts_S32_S1x32)
      0x00000000#32 reduces_S1x32_S1 (.inl rfl) rfl) shapeCasts_S1_S1x1) inpos_S1x1_p0_0 = ∑ r : Fin 32, v (ix1 r) := by
  unfold extractAt
  refine (shapeCast_apply _ shapeCasts_S1_S1x1 _ (ix1 (0 : Fin 1)) ?_).trans ?_
  · rw [Shape.rowMajor_val_one, Shape.rowMajor_val_two]
    rfl
  refine (Ideal.multiReduction_add_single _ _ reduces_S1x32_S1 (.inl rfl) rfl (ix1 (0 : Fin 1))).trans ?_
  show ∑ r : Fin 32, _ = _
  refine Finset.sum_congr rfl fun r _ => ?_
  rw [drift_lift_axis1]
  exact shapeCast_a_1a_apply v shapeCasts_S32_S1x32 0 r

/-- The squared difference of the entries two columns apart in row `r` of a block, at column `j`. -/
def driftTerm {n : Nat} (x : (⟨2, ![n, 400]⟩ : Shape).Idx → EReal) (r : Fin n) (j : Fin 398) : EReal :=
  (x (ix2 r ⟨j.val, by omega⟩) - x (ix2 r ⟨j.val + 2, by omega⟩))
    * (x (ix2 r ⟨j.val, by omega⟩) - x (ix2 r ⟨j.val + 2, by omega⟩))

/-- The block's drift payload: the sum over its 32 rows and 398 columns of the squared differences two columns apart. -/
theorem drift_pay5_eq (x : Vec Ideal S32x400 .f32) :
    k0_pay5 (F := Ideal) x = ∑ r : Fin 32, ∑ j : Fin 398, driftTerm x r j := by
  unfold k0_pay5 k0_pay4
  refine (drift_sum32 _).trans ?_
  refine Finset.sum_congr rfl fun r _ => ?_
  refine (Ideal.multiReduction_add_single _ _ reduces_S32x398_S32 (.inl rfl) rfl (ix1 r)).trans ?_
  show ∑ j : Fin 398, _ = _
  refine Finset.sum_congr rfl fun j _ => ?_
  rw [drift_lift_axis1, mulf_apply, subf_apply, shapeCast_self,
    extractStridedSlice_apply ![0, 0] x slices_S32x400_o0_0_S32x398 (ix2 r j) (ix2 r ⟨j.val, by omega⟩)
      (fun a => match a with
        | ⟨0, _⟩ => by show r.val = 0 + r.val; omega
        | ⟨1, _⟩ => by show j.val = 0 + j.val; omega),
    extractStridedSlice_apply ![0, 2] x slices_S32x400_o0_2_S32x398 (ix2 r j) (ix2 r ⟨j.val + 2, by omega⟩)
      (fun a => match a with
        | ⟨0, _⟩ => by show r.val = 0 + r.val; omega
        | ⟨1, _⟩ => by show j.val + 2 = 2 + j.val; omega)]
  rfl

/-! ## The reshaped array and the reference's term at coordinates -/

/-- The array reshaped [4096, 200, 2] → [4096, 400] reads, at row `b` and column `2 s + p`, the array at `(b, s, p)`. -/
theorem drift_reshape_at (pp : FVec Ideal S4096x200x2 .f32) (b : Fin 4096) (s : Fin 200) (p : Fin 2) (c : Fin 400)
    (hc : c.val = 2 * s.val + p.val) :
    shapeCast S4096x400 pp shapeCasts_S4096x200x2_S4096x400 (ix2 b c) = pp (ix3 b s p) :=
  shapeCast_apply pp shapeCasts_S4096x200x2_S4096x400 (ix2 b c) (ix3 b s p) (by
    rw [Shape.rowMajor_val_three, Shape.rowMajor_val_two]
    show (b.val * 200 + s.val) * 2 + p.val = b.val * 400 + c.val
    omega)

/-- The reference's squared one-step difference at `(b, s, p)`. -/
theorem drift_ref_term (pp : FVec Ideal S4096x200x2 .f32) (b : Fin 4096) (s : Fin 199) (p : Fin 2) :
    Cert.ReferenceIdeal.Read.val_main_v32 (F := Ideal) pp (ix3 b s p)
      = (pp (ix3 b ⟨s.val, by omega⟩ p) - pp (ix3 b ⟨s.val + 1, by omega⟩ p))
        * (pp (ix3 b ⟨s.val, by omega⟩ p) - pp (ix3 b ⟨s.val + 1, by omega⟩ p)) := by
  have e29 : Cert.ReferenceIdeal.Read.idx_main_v29 (ix3 b s p) = ix3 b ⟨s.val, by omega⟩ p :=
    funext fun a => Fin.ext (by match a with | ⟨0, _⟩ => rfl | ⟨1, _⟩ => rfl | ⟨2, _⟩ => rfl)
  have e30 : Cert.ReferenceIdeal.Read.idx_main_v30 (ix3 b s p) = ix3 b ⟨s.val + 1, by omega⟩ p :=
    funext fun a => Fin.ext (by
      match a with
      | ⟨0, _⟩ => rfl
      | ⟨1, _⟩ => show 1 + s.val = s.val + 1; omega
      | ⟨2, _⟩ => rfl)
  rw [Cert.ReferenceIdeal.Read.val_main_v32_apply, Cert.ReferenceIdeal.Read.val_main_v31_apply,
    Cert.ReferenceIdeal.Read.val_main_v29_apply, Cert.ReferenceIdeal.Read.val_main_v30_apply, e29, e30]
  rfl

/-! ## Regrouping -/

/-- A block's row `r` of the rows `32 t, …, 32 t + 31` is row `32 t + r` of the whole array. -/
theorem driftTerm_rows2 (X : (⟨2, ![4096, 400]⟩ : Shape).Idx → EReal) (t : Fin 128) (r : Fin 32) (j : Fin 398) :
    driftTerm (rows2 128 32 rfl X t) r j = driftTerm X ⟨32 * t.val + r.val, block_lt rfl t r.isLt⟩ j := rfl

/-- At column `2 s + p` of row `b` of the reshaped array, the squared difference two columns apart is the
    reference's squared one-step difference at `(b, s, p)`. -/
theorem driftTerm_reshape (pp : FVec Ideal S4096x200x2 .f32) (b : Fin 4096) (s : Fin 199) (p : Fin 2) :
    driftTerm (shapeCast S4096x400 pp shapeCasts_S4096x200x2_S4096x400) b ⟨2 * s.val + p.val, block_lt rfl s p.isLt⟩
      = Cert.ReferenceIdeal.Read.val_main_v32 (F := Ideal) pp (ix3 b s p) := by
  rw [drift_ref_term]
  unfold driftTerm
  rw [drift_reshape_at pp b ⟨s.val, by omega⟩ p ⟨2 * s.val + p.val, _⟩ rfl,
    drift_reshape_at pp b ⟨s.val + 1, by omega⟩ p ⟨2 * s.val + p.val + 2, _⟩ (by show 2 * s.val + p.val + 2 = 2 * (s.val + 1) + p.val; omega)]

theorem drift_total (pp : FVec Ideal S4096x200x2 .f32) :
    ∑ t : Fin 128, k0_pay5 (F := Ideal) (rows2 128 32 rfl (shapeCast S4096x400 pp shapeCasts_S4096x200x2_S4096x400) t)
      = ∑ i : Cert.ReferenceIdeal.S4096x199x2.Idx, Cert.ReferenceIdeal.Read.val_main_v32 (F := Ideal) pp i := by
  refine (Finset.sum_congr rfl fun t _ => drift_pay5_eq _).trans ?_
  refine (Finset.sum_congr rfl fun t _ => Finset.sum_congr rfl fun r _ => Finset.sum_congr rfl fun j _ =>
    driftTerm_rows2 _ t r j).trans ?_
  refine (sum_blocks 128 32 rfl (fun b : Fin 4096 =>
    ∑ j : Fin 398, driftTerm (shapeCast S4096x400 pp shapeCasts_S4096x200x2_S4096x400) b j)).symm.trans ?_
  refine Eq.trans ?_ (sum_idx3 _).symm
  refine Finset.sum_congr rfl fun b _ => ?_
  refine (sum_blocks 199 2 rfl _).trans ?_
  exact Finset.sum_congr rfl fun s _ => Finset.sum_congr rfl fun p _ => driftTerm_reshape pp b s p

end Cert.Sums

end
-- ==== Proof.GlobalSum.lean ====
/-
  The global-deviation term. The kernel's grid point `t` sums, over its 32 rows and the 400 merged (step, parameter)
  positions of a row, the squared relative deviation `(x / y - 1)²` of the prediction from the tiled global parameter;
  the host adds the 128 partial sums. The reference sums the same squared deviations over all 4096 · 200 · 2 positions.
  With row `b = 32 t + r` and merged position `j = 2 s + p` the two sums have the same terms, regrouped.
-/
import proofs.«120563_j89902255440407_1_alg».proof.Proof.Gen.KernelIdeal.Skeleton
import proofs.«120563_j89902255440407_1_alg».proof.Proof.Gen.ReferenceIdeal.Read
import proofs.«120563_j89902255440407_1_alg».proof.Proof.LibBlockSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Sums

open Cert.KernelIdeal Cert.KernelIdeal.Gen Idealize.ShloMosaic Idealize.ShloMosaic.TcCoe Idealize.ShloMosaic.ValueIdx Cert.LibBlockSum

namespace GlobalDev

/-- The squared relative deviation `(a / b - 1)²` of `a` from `b`; the unit is the word both programs print. -/
def sqdev (a b : Ideal .f32) : Ideal .f32 :=
  (Ideal.div a b - FloatOps.ofBits (F := Ideal) .f32 0x3F800000#32)
    * (Ideal.div a b - FloatOps.ofBits (F := Ideal) .f32 0x3F800000#32)

/-! ## The kernel's block payload as an iterated sum -/

/-- A lane sum of a `[32, 400]` block at row `r` is the sum over the row's 400 positions. -/
theorem lane_sum (w : FVec Ideal S32x400 .f32) (r : Fin 32) :
    multiReduction (F := Ideal) .add [1] S32 w 0x00000000#32 reduces_S32x400_S32 (.inl rfl) rfl (ix1 r)
      = ∑ j : Fin 400, w (ix2 r j) := by
  refine (Ideal.multiReduction_add_single w _ reduces_S32x400_S32 _ _ (ix1 r)).trans ?_
  refine Finset.sum_congr rfl fun j _ => congrArg w ?_
  funext a
  match a with
  | ⟨0, _⟩ => rfl
  | ⟨1, _⟩ => rfl

/-- The sum of a vector of 32 partial sums, taken as the kernel takes it: viewed `[1, 32]`, summed along the lanes
    into `[1]`, viewed `[1, 1]` and read at `(0, 0)`. -/
theorem row_sum (v : FVec Ideal S32 .f32) :
    extractAt ![0, 0] (shapeCast S1x1 (multiReduction (F := Ideal) .add [1] S1 (shapeCast S1x32 v shapeCasts_S32_S1x32)
        0x00000000#32 reduces_S1x32_S1 (.inl rfl) rfl) shapeCasts_S1_S1x1) inpos_S1x1_p0_0
      = ∑ r : Fin 32, v (ix1 r) := by
  unfold extractAt
  refine (shapeCast_apply _ shapeCasts_S1_S1x1 _ (ix1 (0 : Fin 1)) ?_).trans ?_
  · rw [Shape.rowMajor_val_one, Shape.rowMajor_val_two]; rfl
  refine (Ideal.multiReduction_add_single _ _ reduces_S1x32_S1 _ _ (ix1 (0 : Fin 1))).trans ?_
  refine Finset.sum_congr rfl fun r _ => ?_
  refine shapeCast_apply v shapeCasts_S32_S1x32 _ (ix1 r) ?_
  rw [Shape.rowMajor_val_one, Shape.rowMajor_val_two]
  show r.val = 0 * 32 + r.val
  omega

/-- The kernel's view of its block under the block's own shape is the block. -/
theorem pay4_eq (x : FVec Ideal S32x400 .f32) : k0_pay4 (F := Ideal) x = x := by
  unfold k0_pay4
  exact shapeCast_self x _

/-- The divisor row, viewed `[1, 400]` and broadcast over the 32 rows, reads the divisor at the position. -/
theorem divisor_at (y : FVec Ideal S400 .f32) (r : Fin 32) (j : Fin 400) :
    broadcastTo S32x400 (shapeCast S1x400 y shapeCasts_S400_S1x400) broadcasts_S1x400_S32x400 (ix2 r j) = y (ix1 j) :=
  (broadcastTo_1b_ab_apply _ broadcasts_S1x400_S32x400 r j).trans (shapeCast_a_1a_apply y shapeCasts_S400_S1x400 0 j)

/-- The block payload: the sum over the 32 rows and the 400 positions of the squared relative deviations. -/
theorem pay6_eq (x : FVec Ideal S32x400 .f32) (y : FVec Ideal S400 .f32) :
    k0_pay6 (F := Ideal) x y = ∑ r : Fin 32, ∑ j : Fin 400, sqdev (x (ix2 r j)) (y (ix1 j)) := by
  unfold k0_pay6
  refine (row_sum _).trans ?_
  refine Finset.sum_congr rfl fun r _ => ?_
  refine (lane_sum _ r).trans ?_
  refine Finset.sum_congr rfl fun j _ => ?_
  show sqdev (k0_pay4 (F := Ideal) x (ix2 r j))
      (broadcastTo S32x400 (shapeCast S1x400 y shapeCasts_S400_S1x400) broadcasts_S1x400_S32x400 (ix2 r j)) = _
  rw [pay4_eq, divisor_at]

/-! ## The kernel's operands at an index -/

/-- The predictions viewed `[4096, 400]` read, at row `b` and merged position `j`, step `j / 2` and parameter `j % 2`:
    the two row-major positions agree. -/
theorem merged_at (pp : FVec Ideal S4096x200x2 .f32) (b : Fin 4096) (j : Fin 400) :
    shapeCast S4096x400 pp shapeCasts_S4096x200x2_S4096x400 (ix2 b j)
      = pp (ix3 b (⟨j.val / 2, by omega⟩ : Fin 200) (⟨j.val % 2, by omega⟩ : Fin 2)) := by
  refine shapeCast_apply pp shapeCasts_S4096x200x2_S4096x400 _ _ ?_
  rw [Shape.rowMajor_val_three, Shape.rowMajor_val_two]
  show (b.val * 200 + j.val / 2) * 2 + j.val % 2 = b.val * 400 + j.val
  omega

/-- The global parameter tiled over the 200 steps and merged into 400 positions reads, at position `j`, parameter
    `j % 2`. -/
theorem tiled_at (θ : FVec Ideal S2 .f32) (j : Fin 400) :
    shapeCast S400 (broadcastInDim S200x2 ![0, 1] bcast_S1x2_S200x2_0_1 (shapeCast S1x2 θ shapeCasts_S2_S1x2))
        shapeCasts_S200x2_S400 (ix1 j)
      = θ (ix1 (⟨j.val % 2, by omega⟩ : Fin 2)) := by
  refine (shapeCast_apply _ shapeCasts_S200x2_S400 _
    (ix2 (⟨j.val / 2, by omega⟩ : Fin 200) (⟨j.val % 2, by omega⟩ : Fin 2)) ?_).trans ?_
  · rw [Shape.rowMajor_val_two, Shape.rowMajor_val_one]
    show j.val / 2 * 2 + j.val % 2 = j.val
    omega
  refine (broadcastInDim_apply _ bcast_S1x2_S200x2_0_1 _ _
    (ix2 (0 : Fin 1) (⟨j.val % 2, by omega⟩ : Fin 2)) fun a => ?_).trans ?_
  · match a with
    | ⟨0, _⟩ => rfl
    | ⟨1, _⟩ => rfl
  exact shapeCast_a_1a_apply θ shapeCasts_S2_S1x2 0 _

/-! ## The reference's term at an index -/

/-- The reference's squared relative deviation at individual `b`, step `s`, parameter `p`. -/
theorem ref_at (θ : FVec Ideal S2 .f32) (pp : FVec Ideal S4096x200x2 .f32) (b : Fin 4096) (s : Fin 200) (p : Fin 2) :
    Cert.ReferenceIdeal.Read.val_main_v40 (F := Ideal) θ pp (ix3 b s p) = sqdev (pp (ix3 b s p)) (θ (ix1 p)) := by
  rw [Cert.ReferenceIdeal.Read.val_main_v40_apply, Cert.ReferenceIdeal.Read.val_main_v39_apply,
    Cert.ReferenceIdeal.Read.val_main_v37_apply, Cert.ReferenceIdeal.Read.val_main_v38_apply,
    Cert.ReferenceIdeal.Read.val_main_cst_9_apply, Cert.ReferenceIdeal.Read.val_main_v36_apply,
    Cert.ReferenceIdeal.Read.val_main_v35_apply]
  have hidx : Cert.ReferenceIdeal.Read.idx_main_v35 (Cert.ReferenceIdeal.Read.idx_main_v36 (ix3 b s p)) = ix1 p := by
    funext a
    match a with
    | ⟨0, _⟩ => rfl
  rw [hidx]
  rfl

/-! ## Regrouping -/

/-- A sum over the 400 merged positions is the double sum over the 200 steps and the 2 parameters. -/
theorem sum_merged {M : Type*} [AddCommMonoid M] (g : Fin 200 → Fin 2 → M) :
    ∑ j : Fin 400, g ⟨j.val / 2, by omega⟩ ⟨j.val % 2, by omega⟩ = ∑ s : Fin 200, ∑ p : Fin 2, g s p := by
  rw [sum_blocks 200 2 rfl]
  refine Finset.sum_congr rfl fun s _ => Finset.sum_congr rfl fun p _ => ?_
  have hs : (2 * s.val + p.val) / 2 = s.val := by omega
  have hp : (2 * s.val + p.val) % 2 = p.val := by omega
  exact congrArg₂ g (Fin.ext hs) (Fin.ext hp)

/-- Grid point `t`'s partial sum, by individual, step and parameter. -/
theorem point_sum (θ : FVec Ideal S2 .f32) (pp : FVec Ideal S4096x200x2 .f32) (t : Fin 128) :
    k0_pay6 (F := Ideal) (rows2 128 32 rfl (shapeCast S4096x400 pp shapeCasts_S4096x200x2_S4096x400) t)
        (shapeCast S400 (broadcastInDim S200x2 ![0, 1] bcast_S1x2_S200x2_0_1 (shapeCast S1x2 θ shapeCasts_S2_S1x2)) shapeCasts_S200x2_S400)
      = ∑ r : Fin 32, ∑ s : Fin 200, ∑ p : Fin 2,
          sqdev (pp (ix3 (⟨32 * t.val + r.val, block_lt rfl t r.isLt⟩ : Fin 4096) s p)) (θ (ix1 p)) := by
  rw [pay6_eq]
  refine Finset.sum_congr rfl fun r _ => ?_
  refine Eq.trans (Finset.sum_congr rfl fun j _ => ?_)
    (sum_merged fun s p => sqdev (pp (ix3 (⟨32 * t.val + r.val, block_lt rfl t r.isLt⟩ : Fin 4096) s p)) (θ (ix1 p)))
  rw [rows2_apply, merged_at, tiled_at]

end GlobalDev

theorem global_total (θ : FVec Ideal S2 .f32) (pp : FVec Ideal S4096x200x2 .f32) :
    ∑ t : Fin 128, k0_pay6 (F := Ideal) (rows2 128 32 rfl (shapeCast S4096x400 pp shapeCasts_S4096x200x2_S4096x400) t)
        (shapeCast S400 (broadcastInDim S200x2 ![0, 1] bcast_S1x2_S200x2_0_1 (shapeCast S1x2 θ shapeCasts_S2_S1x2)) shapeCasts_S200x2_S400)
      = ∑ i : Cert.ReferenceIdeal.S4096x200x2.Idx, Cert.ReferenceIdeal.Read.val_main_v40 (F := Ideal) θ pp i := by
  rw [Finset.sum_congr rfl fun t _ => GlobalDev.point_sum θ pp t, sum_idx3, sum_blocks 128 32 rfl]
  refine Finset.sum_congr rfl fun t _ => Finset.sum_congr rfl fun r _ =>
    Finset.sum_congr rfl fun s _ => Finset.sum_congr rfl fun p _ => ?_
  exact (GlobalDev.ref_at θ pp _ s p).symm

end Cert.Sums

end
-- ==== Proof.StepSum.lean ====
/-
  The step-ahead term. Each grid point's scalar is the sum, over its 32 individuals, of a selected masked mean of
  squared one-step-ahead errors; the reference computes the same mean per individual with the mask and the count
  spelt differently. Per individual the two agree once the length word is at most 200 (the count's integer product
  then does not wrap); summing the 4096 individuals in 128 blocks of 32 gives the total.
-/
import proofs.«120563_j89902255440407_1_alg».proof.Proof.Gen.KernelIdeal.Skeleton
import proofs.«120563_j89902255440407_1_alg».proof.Proof.Gen.ReferenceIdeal.Read
import proofs.«120563_j89902255440407_1_alg».proof.Proof.LibBlockSum
import proofs.«120563_j89902255440407_1_alg».proof.Proof.StepScalar
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Idealize.ShloMosaic.Lib.KernelVsHost
import Idealize.ShloMosaic.Lib.IdealHost

noncomputable section

open scoped BigOperators

namespace Cert.Sums

open Cert.KernelIdeal Cert.KernelIdeal.Gen Idealize.ShloMosaic Idealize.ShloMosaic.TcCoe Idealize.ShloMosaic.ValueIdx Cert.LibBlockSum

namespace StepAhead

/-! ## Words and constants -/

/-- The f32 word `0x42800000` is the real 64. -/
theorem ofBits_64_f32 : Ideal.ofBits .f32 0x42800000#32 = ((64 : ℝ) : EReal) := by
  simp [Ideal.ofBits, Ideal.ieee, -EReal.coe_mul]; norm_num

/-- The signed test "the length exceeds one" as an inequality of integers. -/
theorem sgt_one_iff (L : BitVec 32) : IntOp.cmpi .sgt L 1#32 = 1#1 ↔ 1 < L.toInt := by
  show BitVec.ofBool ((1#32).slt L) = 1#1 ↔ _
  rw [StableHlo.Predicate.ofBool_eq_one_iff]
  simp [BitVec.slt]

/-- Above one, taking one off the length does not wrap. -/
theorem toInt_sub_one (L : BitVec 32) (h1 : 1 < L.toInt) : (IntOp.subi L 1#32).toInt = L.toInt - 1 := by
  show (L - 1#32).toInt = _
  rw [BitVec.toInt_sub]
  have := BitVec.toInt_lt (x := L)
  have h2 : (1#32 : BitVec 32).toInt = 1 := by decide
  rw [h2]
  exact Int.bmod_eq_of_le_mul_two (by omega) (by omega)

/-- The signed maximum with one of a word that is at least one is the word. -/
theorem toInt_maxsi_one (a : BitVec 32) (h : 1 ≤ a.toInt) : (IntOp.maxsi a 1#32).toInt = a.toInt := by
  unfold IntOp.maxsi
  by_cases hs : (1#32 : BitVec 32).slt a
  · rw [if_pos hs]
  · rw [if_neg hs]
    have : ¬ ((1#32 : BitVec 32).toInt < a.toInt) := by simpa [BitVec.slt] using hs
    have h2 : (1#32 : BitVec 32).toInt = 1 := by decide
    omega

/-- A small non-negative word times 64 does not wrap. -/
theorem toInt_mul_64 (a : BitVec 32) (h0 : 0 ≤ a.toInt) (h1 : a.toInt ≤ 200) :
    (IntOp.muli a 64#32).toInt = a.toInt * 64 := by
  show (a * 64#32).toInt = _
  rw [BitVec.toInt_mul]
  have h2 : (64#32 : BitVec 32).toInt = 64 := by decide
  rw [h2]
  exact Int.bmod_eq_of_le_mul_two (by omega) (by omega)

/-! ## One individual -/

/-- The kernel's mask at step `t` for length word `L`: the bit "t < L − 1" widened and converted signed. -/
def maskK (L : BitVec 32) (t : Nat) : EReal :=
  FloatOps.sitofp (F := Ideal) .f32 ((IntOp.cmpi .slt (BitVec.ofNat 32 t) (IntOp.subi L 1#32)).setWidth 32)

/-- The reference's mask: the same bit converted unsigned. -/
def maskR (L : BitVec 32) (t : Nat) : EReal :=
  FloatOps.uitofp (F := Ideal) .f32 (IntOp.cmpi .slt (BitVec.ofNat 32 t) (IntOp.subi L 1#32))

/-- The kernel's selected mean for one individual, from its length word and its masked sum. -/
def rowK (L : BitVec 32) (A : EReal) : EReal :=
  Scalar.select (IntOp.cmpi .sgt L 1#32)
    (Ideal.div A (FloatOps.sitofp (F := Ideal) .f32 (IntOp.maxsi (IntOp.subi L 1#32) 1#32) * Ideal.ofBits .f32 0x42800000#32))
    (Ideal.ofBits .f32 0x00000000#32)

/-- The reference's selected mean for one individual. -/
def rowR (L : BitVec 32) (A : EReal) : EReal :=
  Scalar.select (IntOp.cmpi .sgt L 1#32)
    (Ideal.div A (FloatOps.sitofp (F := Ideal) .f32 (IntOp.muli (IntOp.maxsi (IntOp.subi L 1#32) 1#32) 64#32)))
    (Ideal.ofBits .f32 0x00000000#32)

/-- The two masks are one value. -/
theorem maskK_eq_maskR (L : BitVec 32) (t : Nat) : maskK L t = maskR L t := by
  show (((((IntOp.cmpi .slt (BitVec.ofNat 32 t) (IntOp.subi L 1#32)).setWidth 32).toInt : ℝ)) : EReal)
    = ((((IntOp.cmpi .slt (BitVec.ofNat 32 t) (IntOp.subi L 1#32)).toNat : ℝ)) : EReal)
  rw [toInt_setWidth_bit]
  norm_cast

/-- The mask is zero or one. -/
theorem maskR_cases (L : BitVec 32) (t : Nat) : maskR L t = 0 ∨ maskR L t = 1 := by
  unfold maskR
  rcases BitVec.eq_zero_or_eq_one (IntOp.cmpi .slt (BitVec.ofNat 32 t) (IntOp.subi L 1#32)) with h | h
  · left; rw [h]; show (((0#1 : BitVec 1).toNat : ℝ) : EReal) = 0; simp
  · right; rw [h]; show (((1#1 : BitVec 1).toNat : ℝ) : EReal) = 1; simp

/-- A sum times a mask value is the sum of the terms times it: the mask is zero or one. -/
theorem sum_mul_mask {n : Nat} (f : Fin n → EReal) (m : EReal) (hm : m = 0 ∨ m = 1) :
    (∑ d : Fin n, f d) * m = ∑ d : Fin n, f d * m := by
  rcases hm with h | h
  · subst h; simp
  · subst h; simp

/-- With a length above one and at most 200 the two counts are one value. -/
theorem count_eq (L : BitVec 32) (h1 : 1 < L.toInt) (h200 : L.toInt ≤ 200) :
    FloatOps.sitofp (F := Ideal) .f32 (IntOp.maxsi (IntOp.subi L 1#32) 1#32) * Ideal.ofBits .f32 0x42800000#32
      = FloatOps.sitofp (F := Ideal) .f32 (IntOp.muli (IntOp.maxsi (IntOp.subi L 1#32) 1#32) 64#32) := by
  have hs := toInt_sub_one L h1
  have hm := toInt_maxsi_one (IntOp.subi L 1#32) (by omega)
  have hp := toInt_mul_64 (IntOp.maxsi (IntOp.subi L 1#32) 1#32) (by omega) (by omega)
  show (((IntOp.maxsi (IntOp.subi L 1#32) 1#32).toInt : ℝ) : EReal) * Ideal.ofBits .f32 0x42800000#32
    = (((IntOp.muli (IntOp.maxsi (IntOp.subi L 1#32) 1#32) 64#32).toInt : ℝ) : EReal)
  rw [ofBits_64_f32, hp, ← EReal.coe_mul]
  norm_cast

/-- One individual: the kernel's selected mean of the kernel's masked sum is the reference's of the reference's. -/
theorem rowK_eq_rowR (L : BitVec 32) (h200 : L.toInt ≤ 200) (X : Fin 199 → Fin 64 → EReal) :
    rowK L (∑ t : Fin 199, (∑ d : Fin 64, X t d) * maskK L t.val)
      = rowR L (Ideal.ofBits .f32 0x00000000#32 + ∑ t : Fin 199, ∑ d : Fin 64, X t d * maskR L t.val) := by
  unfold rowK rowR
  by_cases hc : IntOp.cmpi .sgt L 1#32 = 1#1
  · rw [hc, select_one, select_one, count_eq L ((sgt_one_iff L).mp hc) h200, Ideal.ofBits_zero_f32, zero_add]
    congr 1
    refine Finset.sum_congr rfl fun t _ => ?_
    rw [maskK_eq_maskR, sum_mul_mask _ _ (maskR_cases L t.val)]
  · rw [eq_zero_of_ne_one hc, select_zero, select_zero]

/-! ## The kernel's block: its layout operations and lane sums read at an index -/

/-- The squared one-step-ahead error. -/
def sqe (c s : EReal) : EReal := (c - s) * (c - s)

/-- The sum over the feature lanes, at individual `r` and step `t`. -/
theorem laneSum_apply (V : FVec Ideal S32x199x64 .f32) (r : Fin 32) (t : Fin 199) :
    multiReduction .add [2] S32x199 V 0x00000000#32 reduces_S32x199x64_S32x199 (.inl rfl) rfl (ix2 r t)
      = ∑ d : Fin 64, V (ix3 r t d) := by
  refine (Ideal.multiReduction_add_single V _ reduces_S32x199x64_S32x199 _ _ (ix2 r t)).trans ?_
  refine Finset.sum_congr rfl fun (d : Fin 64) _ => congrArg V ?_
  funext a
  match a with
  | ⟨0, _⟩ => rfl
  | ⟨1, _⟩ => rfl
  | ⟨2, _⟩ => rfl

/-- The sum over the steps, at individual `r`. -/
theorem stepSum_apply (W : FVec Ideal S32x199 .f32) (r : Fin 32) :
    multiReduction .add [1] S32 W 0x00000000#32 reduces_S32x199_S32 (.inl rfl) rfl (ix1 r)
      = ∑ t : Fin 199, W (ix2 r t) := by
  refine (Ideal.multiReduction_add_single W _ reduces_S32x199_S32 _ _ (ix1 r)).trans ?_
  refine Finset.sum_congr rfl fun (t : Fin 199) _ => congrArg W ?_
  funext a
  match a with
  | ⟨0, _⟩ => rfl
  | ⟨1, _⟩ => rfl

/-- The sum over the block's rows, extracted as a scalar. -/
theorem rowSum_extract (W : FVec Ideal S32 .f32) :
    extractAt ![0, 0] (shapeCast S1x1 (multiReduction .add [1] S1 (shapeCast S1x32 W shapeCasts_S32_S1x32) 0x00000000#32
        reduces_S1x32_S1 (.inl rfl) rfl) shapeCasts_S1_S1x1) inpos_S1x1_p0_0
      = ∑ r : Fin 32, W (ix1 r) := by
  unfold extractAt
  refine (shapeCast_apply _ shapeCasts_S1_S1x1 _ (ix1 (0 : Fin 1)) ?_).trans ?_
  · rw [Shape.rowMajor_val_one, Shape.rowMajor_val_two]; rfl
  refine (Ideal.multiReduction_add_single _ _ reduces_S1x32_S1 _ _ (ix1 (0 : Fin 1))).trans ?_
  refine Finset.sum_congr rfl fun (r : Fin 32) _ => ?_
  refine (shapeCast_apply W shapeCasts_S32_S1x32 _ (ix1 r) ?_)
  rw [Shape.rowMajor_val_one, Shape.rowMajor_val_two]
  show r.val = 0 * 32 + r.val
  omega

/-- The length column read as a vector. -/
theorem lenCol_apply (v30 : IVec S32x1 32) (r : Fin 32) :
    shapeCast S32 v30 shapeCasts_S32x1_S32 (ix1 r) = v30 (ix2 r (0 : Fin 1)) := by
  refine shapeCast_apply v30 shapeCasts_S32x1_S32 _ (ix2 r (0 : Fin 1)) ?_
  rw [Shape.rowMajor_val_one, Shape.rowMajor_val_two]
  show r.val * 1 + 0 = r.val
  omega

/-- The block scalar is the sum over the block's rows of the selected means. -/
theorem stepScalar_eq (v30 : IVec S32x1 32) (v39 : FVec Ideal S32 .f32) :
    stepScalar (F := Ideal) v30 v39 = ∑ r : Fin 32, rowK (v30 (ix2 r (0 : Fin 1))) (v39 (ix1 r)) := by
  refine (rowSum_extract _).trans ?_
  refine Finset.sum_congr rfl fun r _ => ?_
  show rowK (shapeCast S32 v30 shapeCasts_S32x1_S32 (ix1 r)) (v39 (ix1 r)) = _
  rw [lenCol_apply]

/-- The cut of the covariates (first step and first feature dropped) read at an index. -/
theorem covSlice_apply (c : FVec Ideal S32x200x65 .f32) (r : Fin 32) (t : Fin 199) (d : Fin 64) :
    extractStridedSlice S32x199x64 ![0, 1, 1] c slices_S32x200x65_o0_1_1_S32x199x64 (ix3 r t d)
      = c (ix3 r (⟨1 + t.val, by have := t.isLt; omega⟩ : Fin 200) (⟨1 + d.val, by have := d.isLt; omega⟩ : Fin 65)) := by
  refine extractStridedSlice_apply _ c _ (ix3 r t d) _ (fun a => ?_)
  match a with
  | ⟨0, _⟩ => show r.val = 0 + r.val; omega
  | ⟨1, _⟩ => rfl
  | ⟨2, _⟩ => rfl

/-- The length column broadcast along the steps reads the individual's length. -/
theorem lenBcast_apply (v33 : IVec S32x1 32) (r : Fin 32) (t : Fin 199) :
    broadcastTo S32x199 v33 broadcasts_S32x1_S32x199 (ix2 r t) = v33 (ix2 r (0 : Fin 1)) := by
  refine broadcastTo_apply v33 _ (ix2 r t) (ix2 r (0 : Fin 1)) (fun a => ?_)
  match a with
  | ⟨0, _⟩ => show r.val = if (32 : Nat) = 1 then 0 else r.val; rw [if_neg (by decide)]
  | ⟨1, _⟩ => show 0 = if (1 : Nat) = 1 then 0 else t.val; rw [if_pos rfl]

/-- The step counter reads the step. -/
theorem stepIota_apply (r : Fin 32) (t : Fin 199) :
    iota .tc S32x199 32 [1] iota_S32x199_d1_w32 (ix2 r t) = BitVec.ofNat 32 t.val := by
  show BitVec.ofNat 32 (0 * 199 + t.val) = _
  rw [Nat.zero_mul, Nat.zero_add]

/-- The block's lengths, as loaded. -/
theorem k0_pay7_eq (l : IVec S32x1 32) : k0_pay7 (F := Ideal) l = l := by
  unfold k0_pay7
  exact shapeCast_self l _

/-- The block's masked sums of squared errors: at individual `r`, the sum over the steps of the lane sum of squared
    errors times the kernel's mask. -/
theorem k0_pay8_apply (c : FVec Ideal S32x200x65 .f32) (s : FVec Ideal S32x199x64 .f32) (l : IVec S32x1 32) (r : Fin 32) :
    k0_pay8 (F := Ideal) c s l (ix1 r)
      = ∑ t : Fin 199, (∑ d : Fin 64, sqe (c (ix3 r (⟨1 + t.val, by have := t.isLt; omega⟩ : Fin 200)
            (⟨1 + d.val, by have := d.isLt; omega⟩ : Fin 65))) (s (ix3 r t d)))
          * maskK (l (ix2 r (0 : Fin 1))) t.val := by
  refine (stepSum_apply _ r).trans ?_
  refine Finset.sum_congr rfl fun t _ => ?_
  refine congrArg₂ (· * ·) ?_ ?_
  · refine (laneSum_apply _ r t).trans ?_
    refine Finset.sum_congr rfl fun d _ => ?_
    show sqe (extractStridedSlice S32x199x64 ![0, 1, 1] c slices_S32x200x65_o0_1_1_S32x199x64 (ix3 r t d)) (s (ix3 r t d)) = _
    rw [covSlice_apply]
  · show FloatOps.sitofp (F := Ideal) .f32 ((IntOp.cmpi .slt (iota .tc S32x199 32 [1] iota_S32x199_d1_w32 (ix2 r t))
        (broadcastTo S32x199 (subi (k0_pay7 (F := Ideal) l) (broadcast S32x1 1#32)) broadcasts_S32x1_S32x199 (ix2 r t))).setWidth 32) = _
    rw [stepIota_apply, lenBcast_apply, k0_pay7_eq]
    rfl

/-! ## The reference, one individual -/

open Cert.ReferenceIdeal.Read

/-- The source indices that the sum over steps and features sends to individual `n` are the pairs (step, feature) at
    `n`: the sum over them is the double sum. -/
theorem sum_fiber (h : Cert.ReferenceIdeal.S4096x199x64.ReducesTo [1, 2] Cert.ReferenceIdeal.S4096)
    (x : Cert.ReferenceIdeal.S4096x199x64.Idx → EReal) (n : Fin 4096)
    [DecidablePred fun i : Cert.ReferenceIdeal.S4096x199x64.Idx => h.drop i = ix1 n] :
    ∑ i ∈ Finset.univ.filter (fun i => h.drop i = ix1 n), x i = ∑ t : Fin 199, ∑ d : Fin 64, x (ix3 n t d) := by
  have hf : ∀ i : Cert.ReferenceIdeal.S4096x199x64.Idx, h.drop i = ix1 n ↔ (i 0).val = n.val := fun i => by
    have e0 : ((h.drop i) 0 : Nat) = (i 0).val := Shape.ReducesTo.drop_apply_val_of_eq h i 0 0
    constructor
    · intro e; rw [← e0, e]
    · intro e; funext b
      match b with
      | ⟨0, _⟩ => exact Fin.ext (e0.trans e)
  rw [Finset.filter_congr (fun i _ => hf i), Finset.sum_filter, sum_idx3, Finset.sum_eq_single n]
  · refine Finset.sum_congr rfl fun t _ => Finset.sum_congr rfl fun d _ => ?_
    exact if_pos rfl
  · intro a _ ha
    refine Finset.sum_eq_zero fun t _ => Finset.sum_eq_zero fun d _ => ?_
    exact if_neg (fun e => ha (Fin.ext e))
  · intro hn; exact absurd (Finset.mem_univ n) hn

/-- The reference's squared error at an index. -/
theorem ref_sq_apply (stp : FVec Ideal S4096x199x64 .f32) (cov : FVec Ideal S4096x200x65 .f32) (n : Fin 4096)
    (t : Fin 199) (d : Fin 64) :
    val_main_v2 (F := Ideal) stp cov (ix3 n t d)
      = sqe (cov (ix3 n (⟨1 + t.val, by have := t.isLt; omega⟩ : Fin 200) (⟨1 + d.val, by have := d.isLt; omega⟩ : Fin 65)))
          (stp (ix3 n t d)) := by
  rw [val_main_v2_apply, val_main_v1_apply, val_main_v0_apply]
  have hi : idx_main_v0 (ix3 n t d)
      = ix3 n (⟨1 + t.val, by have := t.isLt; omega⟩ : Fin 200) (⟨1 + d.val, by have := d.isLt; omega⟩ : Fin 65) := by
    funext a
    match a with
    | ⟨0, _⟩ => rfl
    | ⟨1, _⟩ => rfl
    | ⟨2, _⟩ => rfl
  rw [hi]
  rfl

/-- The reference's mask at an index. -/
theorem ref_mask_apply (len : IVec S4096 32) (n : Fin 4096) (t : Fin 199) (d : Fin 64) :
    val_main_v13 (F := Ideal) len (ix3 n t d) = maskR (len (ix1 n)) t.val := by
  rw [val_main_v13_apply, val_main_v12_apply, val_main_v11_apply, val_main_v10_apply, val_main_v8_apply,
    val_main_v4_apply, val_main_v3_apply, val_main_v9_apply, val_main_v7_apply, val_main_v5_apply, val_main_v6_apply,
    val_main_c_apply]
  have hi : idx_main_v5 (idx_main_v9 (idx_main_v12 (idx_main_v13 (ix3 n t d)))) = ix1 n := by
    funext a
    match a with
    | ⟨0, _⟩ => rfl
  rw [hi]
  rfl

/-- The reference's masked sum for individual `n`: zero plus the double sum over steps and features. -/
theorem ref_sum_apply (stp : FVec Ideal S4096x199x64 .f32) (cov : FVec Ideal S4096x200x65 .f32) (len : IVec S4096 32)
    (n : Fin 4096) :
    val_main_v15 (F := Ideal) stp cov len (ix1 n)
      = Ideal.ofBits .f32 0x00000000#32 + ∑ t : Fin 199, ∑ d : Fin 64,
          sqe (cov (ix3 n (⟨1 + t.val, by have := t.isLt; omega⟩ : Fin 200) (⟨1 + d.val, by have := d.isLt; omega⟩ : Fin 65)))
            (stp (ix3 n t d)) * maskR (len (ix1 n)) t.val := by
  unfold val_main_v15
  rw [hostReduceAdd_apply]
  unfold Ideal.hostReduceAdd
  rw [sum_fiber]
  refine congrArg₂ (· + ·) rfl ?_
  refine Finset.sum_congr rfl fun t _ => Finset.sum_congr rfl fun d _ => ?_
  rw [val_main_v14_apply, ref_sq_apply, ref_mask_apply]
  rfl

/-- The reference's selected mean for individual `n`. -/
theorem ref_apply (stp : FVec Ideal S4096x199x64 .f32) (cov : FVec Ideal S4096x200x65 .f32) (len : IVec S4096 32)
    (n : Fin 4096) :
    val_main_v26 (F := Ideal) stp cov len (ix1 n)
      = rowR (len (ix1 n)) (Ideal.ofBits .f32 0x00000000#32 + ∑ t : Fin 199, ∑ d : Fin 64,
          sqe (cov (ix3 n (⟨1 + t.val, by have := t.isLt; omega⟩ : Fin 200) (⟨1 + d.val, by have := d.isLt; omega⟩ : Fin 65)))
            (stp (ix3 n t d)) * maskR (len (ix1 n)) t.val) := by
  rw [val_main_v26_apply, val_main_v25_apply, ref_sum_apply, val_main_v24_apply, val_main_v23_apply, val_main_c_3_apply,
    val_main_v22_apply, val_main_v21_apply, val_main_v19_apply, val_main_v17_apply, val_main_v16_apply, val_main_c_0_apply,
    val_main_v18_apply, val_main_c_1_apply, val_main_v20_apply, val_main_c_2_apply, val_main_call0_v1_apply,
    val_main_call0_v0_apply, val_main_cst_4_apply]
  rfl

end StepAhead

open StepAhead

/-! ## The total -/

theorem step_total (stp : FVec Ideal S4096x199x64 .f32) (cov : FVec Ideal S4096x200x65 .f32) (len : IVec S4096 32)
    (hlen : ∀ i : S4096.Idx, (len i).toInt ≤ 200) :
    ∑ t : Fin 128, stepScalar (F := Ideal)
        (k0_pay7 (F := Ideal) (rows2 128 32 rfl (shapeCast S4096x1 len shapeCasts_S4096_S4096x1) t))
        (k0_pay8 (F := Ideal) (rows3 128 32 rfl cov t) (rows3 128 32 rfl stp t)
          (rows2 128 32 rfl (shapeCast S4096x1 len shapeCasts_S4096_S4096x1) t))
      = ∑ b : Cert.ReferenceIdeal.S4096.Idx, Cert.ReferenceIdeal.Read.val_main_v26 (F := Ideal) stp cov len b := by
  refine Eq.symm ((sum_idx1 _).trans ((sum_blocks 128 32 rfl _).trans ?_))
  refine Finset.sum_congr rfl fun t _ => ?_
  rw [stepScalar_eq]
  refine Finset.sum_congr rfl fun r _ => ?_
  rw [ref_apply, k0_pay8_apply, k0_pay7_eq]
  have hL : rows2 128 32 rfl (shapeCast S4096x1 len shapeCasts_S4096_S4096x1) t (ix2 r (0 : Fin 1))
      = len (ix1 ⟨32 * t.val + r.val, block_lt rfl t r.isLt⟩) := by
    rw [rows2_apply]
    refine shapeCast_apply len shapeCasts_S4096_S4096x1 _ (ix1 _) ?_
    rw [Shape.rowMajor_val_one, Shape.rowMajor_val_two]
    show 32 * t.val + r.val = (32 * t.val + r.val) * 1 + 0
    omega
  rw [hL]
  exact (rowK_eq_rowR _ (hlen _) _).symm

end Cert.Sums

end
-- ==== Proof.lean ====
/-
  The kernel and the reference compute one scalar,
      1 · (S / 4096) + w₁ · (Θ / 1630208) + w₂ · (G / 1638400),
  with the same weight words w₁, w₂ and the same divisor words on both sides, where
    S = ∑ over the 4096 individuals of  [length > 1] · (∑_t (∑_d (cov[b,t+1,d+1] − pred[b,t,d])²) · [t < length − 1]) / cnt,
    Θ = ∑ over [4096, 199, 2] of (p[b,t,q] − p[b,t+1,q])²,
    G = ∑ over [4096, 200, 2] of (p[b,t,q] / θ[q] − 1)².
  The reference forms each total in one reduction. The kernel cuts the individuals into 128 blocks of 32, merges the
  last two axes of `p` into one of length 400 (so a step in `t` is a shift by 2, and the divisor is θ tiled 200
  times), forms each block's share of S, Θ and G, writes it throughout one block of a result array, and adds the 128
  shares on the host. On the extended reals addition is commutative and associative, so regrouping a finite sum never
  changes it: each of the three totals is the same family of terms summed in another order
  (`Cert.Sums.step_total`, `drift_total`, `global_total`); the mask is a 0/1 factor, which may be moved inside the inner
  sum by cases. One thing is not a regrouping: the reference multiplies the count `max (length − 1, 1)` by 64 as a 32-bit
  integer before converting it, the kernel converts and then multiplies by 64 as a number. These agree when the integer
  product does not wrap, which is what the precondition's `length ≤ 200` gives wherever the count is used
  (`length > 1`); where `length ≤ 1` both sides select zero.
  The weighted combination is carried as one function (`Cert.Bridge.combine`) on both sides and never opened.
-/
import proofs.«120563_j89902255440407_1_alg».proof.Defs
import proofs.«120563_j89902255440407_1_alg».proof.Proof.Gen.Kernel
import proofs.«120563_j89902255440407_1_alg».proof.Proof.Gen.Kernel.Skeleton
import proofs.«120563_j89902255440407_1_alg».proof.Proof.Gen.Kernel.Launch
import proofs.«120563_j89902255440407_1_alg».proof.Proof.Gen.Kernel.Points
import proofs.«120563_j89902255440407_1_alg».proof.Proof.Gen.Kernel.Frame
import proofs.«120563_j89902255440407_1_alg».proof.Proof.Gen.KernelIdeal
import proofs.«120563_j89902255440407_1_alg».proof.Proof.Gen.KernelIdeal.Skeleton
import proofs.«120563_j89902255440407_1_alg».proof.Proof.Gen.KernelIdeal.Launch
import proofs.«120563_j89902255440407_1_alg».proof.Proof.Gen.KernelIdeal.Points
import proofs.«120563_j89902255440407_1_alg».proof.Proof.Gen.KernelIdeal.Frame
import proofs.«120563_j89902255440407_1_alg».proof.Proof.Gen.ReferenceIdeal
import proofs.«120563_j89902255440407_1_alg».proof.Proof.Gen.ReferenceIdeal.Run
import proofs.«120563_j89902255440407_1_alg».proof.Proof.Gen.ReferenceIdeal.Read
import proofs.«120563_j89902255440407_1_alg».proof.Proof.Gen.Pre_finite_inputs
import proofs.«120563_j89902255440407_1_alg».proof.Proof.KernelValue
import proofs.«120563_j89902255440407_1_alg».proof.Proof.RefSplit
import proofs.«120563_j89902255440407_1_alg».proof.Proof.Domain
import proofs.«120563_j89902255440407_1_alg».proof.Proof.DriftSum
import proofs.«120563_j89902255440407_1_alg».proof.Proof.GlobalSum
import proofs.«120563_j89902255440407_1_alg».proof.Proof.StepSum
import Idealize.ShloMosaic.Adequacy
import Idealize.ShloMosaic.Init

noncomputable section

namespace Cert.Proof

open Idealize.ShloMosaic Idealize.ShloMosaic.TcCoe Idealize.SL.Sem Cert.Bridge

/-! ## The three frames -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-! ## The two results are one number -/

/-- Under the precondition the kernel's returned scalar is the weighted combination of the REFERENCE's three totals:
    each gathered total of 128 block shares is zero's word plus the sum of the shares, each reference total is zero's
    word plus the sum over its index set, and the two sums are equal term families (the three `…_total` identities; the
    step-ahead one uses that every length is at most 200). -/
theorem result_eq_ref (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Result.result m c
      = combine
          (Cert.ReferenceIdeal.Read.val_main_v27 (F := Ideal)
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5)))
          (Cert.ReferenceIdeal.Read.val_main_v33 (F := Ideal)
            (m ((c.tc : Thread Cert.KernelIdeal.nD Cert.KernelIdeal.τ).loc Cert.KernelIdeal.main_arg1)))
          (Cert.ReferenceIdeal.Read.val_main_v41 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))) := by
  unfold Cert.KernelIdeal.Result.result
  refine congr (congr (congrArg combine ?_) ?_) ?_
  · funext i
    refine ((partialSum_spread _ i).trans ?_).trans (ref_step_total _ _ _ i).symm
    refine congrArg (Ideal.ofBits .f32 0x00000000#32 + ·) ?_
    exact Cert.Sums.step_total _ _ _ (fun j => Cert.Domain.lengths_le _ _ _ _ _ _ (hpre c) j)
  · funext i
    refine ((partialSum_spread _ i).trans ?_).trans (ref_drift_total _ i).symm
    refine congrArg (Ideal.ofBits .f32 0x00000000#32 + ·) ?_
    exact Cert.Sums.drift_total _
  · funext i
    refine ((partialSum_spread _ i).trans ?_).trans (ref_global_total _ _ i).symm
    refine congrArg (Ideal.ofBits .f32 0x00000000#32 + ·) ?_
    exact Cert.Sums.global_total _ _

/-! ## The claims -/

/-- The idealization rewrote no operation: nothing to preserve. -/
theorem preserves : Cert.preserves_Kernel_KernelIdeal := trivial

/-- From memories that agree on the arguments both programs run, leave the arguments as launched, and return the
    same extended real: the kernel's run names its result (`Cert.KernelIdeal.Result.run`), the reference's run names its
    own, which is the weighted combination of its three totals (`ref_split`), and the two are equal (`result_eq_ref`). -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, ref_split, (hagree c).1, (hagree c).2.1, (hagree c).2.2.2.1,
    (hagree c).2.2.2.2.1, (hagree c).2.2.2.2.2]
  exact (result_eq_ref m hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
